-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v75)) (v3 : (c : Dev Cert.KernelIdeal.nD) → Buf (Elt Ideal) ((c.tc : Thread Cert.KernelIdeal.nD Cert.KernelIdeal.τ).loc Cert.KernelIdeal.main_v91)) (v4 : (c : Dev Cert.KernelIdeal.nD) → Buf (Elt Ideal) ((c.tc : Thread Cert.KernelIdeal.nD Cert.KernelIdeal.τ).loc Cert.KernelIdeal.main_v107)) (v5 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_v91) = v3 c
          ∧ r.2.mem ((c.tc : Thread Cert.KernelIdeal.nD Cert.KernelIdeal.τ).loc Cert.KernelIdeal.main_v107) = v4 c
          ∧ r.2.mem ((c.tc : Thread Cert.KernelIdeal.nD Cert.KernelIdeal.τ).loc Cert.KernelIdeal.main_v123) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v118) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S200000x64 : Shape := ⟨2, ![200000, 64]⟩
abbrev S1200000 : Shape := ⟨1, ![1200000]⟩
abbrev S8192 : Shape := ⟨1, ![8192]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S400000x64 .f32) (main_arg1 : FVec F S200000x64 .f32) (main_arg2 : IVec S400000x64 32) (main_arg3 : IVec S200000x64 32) (main_arg4 : IVec S1200000 32) (main_arg5 : IVec S1200000 32) (main_arg6 : FVec F S1200000 .f32) (main_arg7 : IVec S8192 32) (main_arg8 : IVec S8192 32) (main_arg9 : IVec S8192 32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S1200000 .f32 := Host.absf main_arg6
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S400000x64 : Shape := ⟨2, ![400000, 64]⟩
abbrev S200000x64 : Shape := ⟨2, ![200000, 64]⟩
abbrev S1200000 : Shape := ⟨1, ![1200000]⟩
abbrev S8192 : Shape := ⟨1, ![8192]⟩
abbrev S200000x128 : Shape := ⟨2, ![200000, 128]⟩
abbrev S100000x128 : Shape := ⟨2, ![100000, 128]⟩
abbrev S300000x128 : Shape := ⟨2, ![300000, 128]⟩
abbrev S4000x128 : Shape := ⟨2, ![4000, 128]⟩
abbrev S600000x64 : Shape := ⟨2, ![600000, 64]⟩
abbrev S1200000x1 : Shape := ⟨2, ![1200000, 1]⟩
abbrev S_ : Shape := ⟨0, ![]⟩
abbrev S1200000x64 : Shape := ⟨2, ![1200000, 64]⟩
abbrev S2400x128 : Shape := ⟨2, ![2400, 128]⟩
abbrev S8192x1 : Shape := ⟨2, ![8192, 1]⟩
abbrev S8192x64 : Shape := ⟨2, ![8192, 64]⟩

abbrev nBuf : Space → Nat
  | .hbm => 163
  | .vmem => 20
  | .smem => 0
  | _ => 0

abbrev hbmTy0_0 (i : Nat) : BufTy := match i % 128 with
  | 0 => ⟨S400000x64, .f32⟩
  | 1 => ⟨S200000x64, .f32⟩
  | 2 => ⟨S400000x64, .i32⟩
  | 3 => ⟨S200000x64, .i32⟩
  | 4 => ⟨S1200000, .i32⟩
  | 5 => ⟨S1200000, .i32⟩
  | 6 => ⟨S1200000, .f32⟩
  | 7 => ⟨S8192, .i32⟩
  | 8 => ⟨S8192, .i32⟩
  | 9 => ⟨S8192, .i32⟩
  | 10 => ⟨S200000x128, .f32⟩
  | 11 => ⟨S200000x128, .i32⟩
  | 12 => ⟨S100000x128, .f32⟩
  | 13 => ⟨S100000x128, .i32⟩
  | 14 => ⟨S300000x128, .f32⟩
  | 15 => ⟨S600000x64, .f32⟩
  | 16 => ⟨S1200000x1, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S1200000x64, .f32⟩
  | 26 => ⟨S1200000x64, .f32⟩
  | 27 => ⟨S1200000x64, .f32⟩
  | 28 => ⟨S_, .f32⟩
  | 29 => ⟨S600000x64, .f32⟩
  | 30 => ⟨S1200000x1, .i32⟩
  | 31 => ⟨S600000x64, .f32⟩
  | 32 => ⟨S1200000x1, .f32⟩
  | 33 => ⟨S_, .i32⟩
  | 34 => ⟨S1200000, .i32⟩
  | 35 => ⟨S1200000, .i1⟩
  | 36 => ⟨S_, .i32⟩
  | 37 => ⟨S1200000, .i32⟩
  | 38 => ⟨S1200000, .i32⟩
  | 39 => ⟨S1200000, .i32⟩
  | 40 => ⟨S1200000x1, .i32⟩
  | 41 => ⟨S1200000x64, .f32⟩
  | 42 => ⟨S1200000x64, .f32⟩
  | 43 => ⟨S1200000x64, .f32⟩
  | 44 => ⟨S_, .f32⟩
  | 45 => ⟨S600000x64, .f32⟩
  | 46 => ⟨S1200000x1, .i32⟩
  | 47 => ⟨S600000x64, .f32⟩
  | 48 => ⟨S1200000x1, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000x64, .f32⟩
  | 58 => ⟨S1200000x64, .f32⟩
  | 59 => ⟨S1200000x64, .f32⟩
  | 60 => ⟨S_, .f32⟩
  | 61 => ⟨S600000x64, .f32⟩
  | 62 => ⟨S1200000x1, .i32⟩
  | 63 => ⟨S600000x64, .f32⟩
  | 64 => ⟨S300000x128, .f32⟩
  | 65 => ⟨S300000x128, .f32⟩
  | 66 => ⟨S300000x128, .f32⟩
  | 67 => ⟨S300000x128, .f32⟩
  | 68 => ⟨S300000x128, .f32⟩
  | 69 => ⟨S600000x64, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x64, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x64, .f32⟩
  | 91 => ⟨S_, .i32⟩
  | 92 => ⟨S8192, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x64, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x64, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x64, .i32⟩
  | 121 => ⟨S8192x64, .f32⟩
  | 122 => ⟨S8192x64, .f32⟩
  | 123 => ⟨S_, .i32⟩
  | 124 => ⟨S8192, .i32⟩
  | 125 => ⟨S8192, .i1⟩
  | 126 => ⟨S_, .i32⟩
  | 127 => ⟨S8192, .i32⟩
  | _ => ⟨S400000x64, .f32⟩

abbrev hbmTy0_1 (i : Nat) : BufTy := match i % 128 with
  | 0 => ⟨S8192, .i32⟩
  | 1 => ⟨S8192, .i32⟩
  | 2 => ⟨S8192x1, .i32⟩
  | 3 => ⟨S8192x64, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x64, .i32⟩
  | 13 => ⟨S8192x64, .f32⟩
  | 14 => ⟨S8192x64, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x64, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x64, .i32⟩
  | 33 => ⟨S8192x64, .f32⟩
  | 34 => ⟨S8192x64, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .i32⟩
  | .local _ .vmem, ⟨3, _⟩ => ⟨S4000x128, .i32⟩
  | .local _ .vmem, ⟨4, _⟩ => ⟨S4000x128, .f32⟩
  | .local _ .vmem, ⟨5, _⟩ => ⟨S4000x128, .f32⟩
  | .local _ .vmem, ⟨6, _⟩ => ⟨S4000x128, .i32⟩
  | .local _ .vmem, ⟨7, _⟩ => ⟨S4000x128, .i32⟩
  | .local _ .vmem, ⟨8, _⟩ => ⟨S4000x128, .f32⟩
  | .local _ .vmem, ⟨9, _⟩ => ⟨S4000x128, .f32⟩
  | .local _ .vmem, ⟨10, _⟩ => ⟨S2400x128, .f32⟩
  | .local _ .vmem, ⟨11, _⟩ => ⟨S2400x128, .f32⟩
  | .local _ .vmem, ⟨12, _⟩ => ⟨S2400x128, .f32⟩
  | .local _ .vmem, ⟨13, _⟩ => ⟨S2400x128, .f32⟩
  | .local _ .vmem, ⟨14, _⟩ => ⟨S2400x128, .f32⟩
  | .local _ .vmem, ⟨15, _⟩ => ⟨S2400x128, .f32⟩
  | .local _ .vmem, ⟨16, _⟩ => ⟨S2400x128, .f32⟩
  | .local _ .vmem, ⟨17, _⟩ => ⟨S2400x128, .f32⟩
  | .local _ .vmem, ⟨18, _⟩ => ⟨S2400x128, .f32⟩
  | .local _ .vmem, ⟨19, _⟩ => ⟨S2400x128, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_c_18 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_19 : Ref sig .tc := ⟨.hbm, 123, rfl⟩
abbrev main_v92 : Ref sig .tc := ⟨.hbm, 124, rfl⟩
abbrev main_v93 : Ref sig .tc := ⟨.hbm, 125, rfl⟩
abbrev main_c_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_21 : Ref sig .tc := ⟨.hbm, 132, rfl⟩
abbrev main_v99 : Ref sig .tc := ⟨.hbm, 133, rfl⟩
abbrev main_v100 : Ref sig .tc := ⟨.hbm, 134, rfl⟩
abbrev main_c_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_23 : Ref sig .tc := ⟨.hbm, 143, rfl⟩
abbrev main_v108 : Ref sig .tc := ⟨.hbm, 144, rfl⟩
abbrev main_v109 : Ref sig .tc := ⟨.hbm, 145, rfl⟩
abbrev main_c_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_25 : Ref sig .tc := ⟨.hbm, 152, rfl⟩
abbrev main_v115 : Ref sig .tc := ⟨.hbm, 153, rfl⟩
abbrev main_v116 : Ref sig .tc := ⟨.hbm, 154, rfl⟩
abbrev main_c_26 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![75], ![false]⟩

def k0_cond1 (i : grid0.Coords) : BitVec 1 :=
  let arg0 : BitVec 32 := BitVec.ofNat 32 (i 0).val
  let c50_i32 : BitVec 32 := 50#32
  let v0 : BitVec 1 := Scalar.cmpi .slt arg0 c50_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c50_i32_0 : BitVec 32 := 50#32
  let v3 : BitVec 1 := Scalar.cmpi .sge arg0 c50_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S400000x64_S200000x128 : S400000x64.ShapeCasts S200000x128
  shapeCasts_S200000x64_S100000x128 : S200000x64.ShapeCasts S100000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S300000x128_S600000x64 : S300000x128.ShapeCasts S600000x64
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S600000x64 : S_.BroadcastsInDim S600000x64 (![] : Fin 0 → Fin S600000x64.rank)
  shapeCasts_S600000x64_S300000x128 : S600000x64.ShapeCasts S300000x128
  inb_S2400x128_S2400x128_0_0 : ∀ a, (![0, 0] : Fin 2 → Nat) a + S2400x128.size a ≤ S2400x128.size a
  h_S2400x128 : 0 < S2400x128.numel
  shapeCasts_S2400x128_S2400x128 : S2400x128.ShapeCasts S2400x128
  bcast_S_S8192 : S_.BroadcastsInDim S8192 (![] : Fin 0 → Fin S8192.rank)
  bcast_S8192_S8192x1_0 : S8192.BroadcastsInDim S8192x1 (![0] : Fin 1 → Fin S8192x1.rank)
  gather_S600000x64_S1200000x1_S1200000x64_1_0_n_n_0_1_164_wf : GatherDims.WF S600000x64 S1200000x1 S1200000x64 [1] [0] [] [0] [] 1 ![1, 64]
  scatter_S600000x64_S1200000x1_S1200000x64_1_0_0_1_wf : ScatterDims.WF S600000x64 S1200000x1 S1200000x64 [1] [0] [0] 1
  gather_S600000x64_S8192x1_S8192x64_1_0_n_n_0_1_164_wf : GatherDims.WF S600000x64 S8192x1 S8192x64 [1] [0] [] [0] [] 1 ![1, 64]
  gather_S400000x64_S8192x1_S8192x64_1_0_n_n_0_1_164_wf : GatherDims.WF S400000x64 S8192x1 S8192x64 [1] [0] [] [0] [] 1 ![1, 64]
  gather_S200000x64_S8192x1_S8192x64_1_0_n_n_0_1_164_wf : GatherDims.WF S200000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .i32 = 32 ∨ (Rect.block (s := S200000x128) S4000x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .i32 = 32 ∨ (Rect.block (s := S100000x128) S4000x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S300000x128.size a
  hwx0_4 : ∀ i : grid0.Coords, EltTy.bits .f32 = 32 ∨ (Rect.block (s := S300000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2400x128.size a ≤ S300000x128.size a
  hwx1_0 : ∀ i : grid1.Coords, EltTy.bits .f32 = 32 ∨ (Rect.block (s := S300000x128) S2400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2400x128.size a ≤ S300000x128.size a
  hwx1_1 : ∀ i : grid1.Coords, EltTy.bits .f32 = 32 ∨ (Rect.block (s := S300000x128) S2400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2400x128.size a ≤ S300000x128.size a
  hwx1_2 : ∀ i : grid1.Coords, EltTy.bits .f32 = 32 ∨ (Rect.block (s := S300000x128) S2400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2400x128.size a ≤ S300000x128.size a
  hwx1_3 : ∀ i : grid1.Coords, EltTy.bits .f32 = 32 ∨ (Rect.block (s := S300000x128) S2400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2400x128.size a ≤ S300000x128.size a
  hwx1_4 : ∀ i : grid1.Coords, EltTy.bits .f32 = 32 ∨ (Rect.block (s := S300000x128) S2400x128.size (cc1_transform_4 i) (hinb1_4 i)).WholeWords (EltTy.packing .f32)

variable [Facts₀]

def gather_S600000x64_S1200000x1_S1200000x64_1_0_n_n_0_1_164 : GatherDims S600000x64 S1200000x1 S1200000x64 where
  offsetDims := [1]
  collapsedSliceDims := [0]
  operandBatchingDims := []
  startIndicesBatchingDims := []
  startIndexMap := [0]
  indexVectorDim := 1
  sliceSizes := ![1, 64]
  wf := gather_S600000x64_S1200000x1_S1200000x64_1_0_n_n_0_1_164_wf
def scatter_S600000x64_S1200000x1_S1200000x64_1_0_0_1 : ScatterDims S600000x64 S1200000x1 S1200000x64 where
  updateWindowDims := [1]
  insertedWindowDims := [0]
  scatterDimsToOperandDims := [0]
  indexVectorDim := 1
  wf := scatter_S600000x64_S1200000x1_S1200000x64_1_0_0_1_wf
def gather_S600000x64_S8192x1_S8192x64_1_0_n_n_0_1_164 : GatherDims S600000x64 S8192x1 S8192x64 where
  offsetDims := [1]
  collapsedSliceDims := [0]
  operandBatchingDims := []
  startIndicesBatchingDims := []
  startIndexMap := [0]
  indexVectorDim := 1
  sliceSizes := ![1, 64]
  wf := gather_S600000x64_S8192x1_S8192x64_1_0_n_n_0_1_164_wf
def gather_S400000x64_S8192x1_S8192x64_1_0_n_n_0_1_164 : GatherDims S400000x64 S8192x1 S8192x64 where
  offsetDims := [1]
  collapsedSliceDims := [0]
  operandBatchingDims := []
  startIndicesBatchingDims := []
  startIndexMap := [0]
  indexVectorDim := 1
  sliceSizes := ![1, 64]
  wf := gather_S400000x64_S8192x1_S8192x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_v45) S2400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S400000x64 : Shape := ⟨2, ![400000, 64]⟩
abbrev S200000x64 : Shape := ⟨2, ![200000, 64]⟩
abbrev S1200000 : Shape := ⟨1, ![1200000]⟩
abbrev S8192 : Shape := ⟨1, ![8192]⟩
abbrev S600000x64 : Shape := ⟨2, ![600000, 64]⟩
abbrev S1200000x1 : Shape := ⟨2, ![1200000, 1]⟩
abbrev S_ : Shape := ⟨0, ![]⟩
abbrev S1200000x64 : Shape := ⟨2, ![1200000, 64]⟩
abbrev S8192x1 : Shape := ⟨2, ![8192, 1]⟩
abbrev S8192x64 : Shape := ⟨2, ![8192, 64]⟩

abbrev nBuf : Space → Nat
  | .hbm => 159
  | .vmem => 0
  | .smem => 0
  | _ => 0

abbrev hbmTy0_0 (i : Nat) : BufTy := match i % 128 with
  | 0 => ⟨S400000x64, .f32⟩
  | 1 => ⟨S200000x64, .f32⟩
  | 2 => ⟨S400000x64, .i32⟩
  | 3 => ⟨S200000x64, .i32⟩
  | 4 => ⟨S1200000, .i32⟩
  | 5 => ⟨S1200000, .i32⟩
  | 6 => ⟨S1200000, .f32⟩
  | 7 => ⟨S8192, .i32⟩
  | 8 => ⟨S8192, .i32⟩
  | 9 => ⟨S8192, .i32⟩
  | 10 => ⟨S400000x64, .f32⟩
  | 11 => ⟨S200000x64, .f32⟩
  | 12 => ⟨S400000x64, .f32⟩
  | 13 => ⟨S200000x64, .f32⟩
  | 14 => ⟨S600000x64, .f32⟩
  | 15 => ⟨S1200000x1, .f32⟩
  | 16 => ⟨S_, .i32⟩
  | 17 => ⟨S1200000, .i32⟩
  | 18 => ⟨S1200000, .i1⟩
  | 19 => ⟨S_, .i32⟩
  | 20 => ⟨S1200000, .i32⟩
  | 21 => ⟨S1200000, .i32⟩
  | 22 => ⟨S1200000, .i32⟩
  | 23 => ⟨S1200000x1, .i32⟩
  | 24 => ⟨S1200000x64, .f32⟩
  | 25 => ⟨S1200000x64, .f32⟩
  | 26 => ⟨S1200000x64, .f32⟩
  | 27 => ⟨S_, .f32⟩
  | 28 => ⟨S600000x64, .f32⟩
  | 29 => ⟨S1200000x1, .i32⟩
  | 30 => ⟨S600000x64, .f32⟩
  | 31 => ⟨S600000x64, .f32⟩
  | 32 => ⟨S1200000x1, .f32⟩
  | 33 => ⟨S_, .i32⟩
  | 34 => ⟨S1200000, .i32⟩
  | 35 => ⟨S1200000, .i1⟩
  | 36 => ⟨S_, .i32⟩
  | 37 => ⟨S1200000, .i32⟩
  | 38 => ⟨S1200000, .i32⟩
  | 39 => ⟨S1200000, .i32⟩
  | 40 => ⟨S1200000x1, .i32⟩
  | 41 => ⟨S1200000x64, .f32⟩
  | 42 => ⟨S1200000x64, .f32⟩
  | 43 => ⟨S1200000x64, .f32⟩
  | 44 => ⟨S_, .f32⟩
  | 45 => ⟨S600000x64, .f32⟩
  | 46 => ⟨S1200000x1, .i32⟩
  | 47 => ⟨S600000x64, .f32⟩
  | 48 => ⟨S600000x64, .f32⟩
  | 49 => ⟨S1200000x1, .f32⟩
  | 50 => ⟨S_, .i32⟩
  | 51 => ⟨S1200000, .i32⟩
  | 52 => ⟨S1200000, .i1⟩
  | 53 => ⟨S_, .i32⟩
  | 54 => ⟨S1200000, .i32⟩
  | 55 => ⟨S1200000, .i32⟩
  | 56 => ⟨S1200000, .i32⟩
  | 57 => ⟨S1200000x1, .i32⟩
  | 58 => ⟨S1200000x64, .f32⟩
  | 59 => ⟨S1200000x64, .f32⟩
  | 60 => ⟨S1200000x64, .f32⟩
  | 61 => ⟨S_, .f32⟩
  | 62 => ⟨S600000x64, .f32⟩
  | 63 => ⟨S1200000x1, .i32⟩
  | 64 => ⟨S600000x64, .f32⟩
  | 65 => ⟨S600000x64, .f32⟩
  | 66 => ⟨S_, .f32⟩
  | 67 => ⟨S600000x64, .f32⟩
  | 68 => ⟨S600000x64, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x64, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x64, .f32⟩
  | 90 => ⟨S_, .i32⟩
  | 91 => ⟨S8192, .i32⟩
  | 92 => ⟨S8192, .i32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S8192x64, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x64, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x64, .f32⟩
  | 120 => ⟨S8192x64, .f32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S400000x64, .f32⟩

abbrev hbmTy0_1 (i : Nat) : BufTy := match i % 128 with
  | 0 => ⟨S8192x1, .i32⟩
  | 1 => ⟨S8192x64, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x64, .f32⟩
  | 11 => ⟨S8192x64, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x64, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x64, .f32⟩
  | 30 => ⟨S8192x64, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_18 : Ref sig .tc := ⟨.hbm, 111, rfl⟩
abbrev main_v81 : Ref sig .tc := ⟨.hbm, 112, rfl⟩
abbrev main_v82 : Ref sig .tc := ⟨.hbm, 113, rfl⟩
abbrev main_c_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_c_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_22 : Ref sig .tc := ⟨.hbm, 130, rfl⟩
abbrev main_v96 : Ref sig .tc := ⟨.hbm, 131, rfl⟩
abbrev main_v97 : Ref sig .tc := ⟨.hbm, 132, rfl⟩
abbrev main_c_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_24 : Ref sig .tc := ⟨.hbm, 140, rfl⟩
abbrev main_v104 : Ref sig .tc := ⟨.hbm, 141, rfl⟩
abbrev main_v105 : Ref sig .tc := ⟨.hbm, 142, rfl⟩
abbrev main_c_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_26 : Ref sig .tc := ⟨.hbm, 149, rfl⟩
abbrev main_v111 : Ref sig .tc := ⟨.hbm, 150, rfl⟩
abbrev main_v112 : Ref sig .tc := ⟨.hbm, 151, rfl⟩
abbrev main_c_27 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩

abbrev nD : Nat := 1
abbrev τ : Topo := Topo.v7x

variable {F : FTy → Type} [FloatOps F]

class Facts₀ : Prop where
  concatenates_S400000x64_S200000x64_S600000x64_d0 : Shape.Concatenates [S400000x64, S200000x64] S600000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S600000x64 : S_.BroadcastsInDim S600000x64 (![] : Fin 0 → Fin S600000x64.rank)
  bcast_S_S8192 : S_.BroadcastsInDim S8192 (![] : Fin 0 → Fin S8192.rank)
  bcast_S8192_S8192x1_0 : S8192.BroadcastsInDim S8192x1 (![0] : Fin 1 → Fin S8192x1.rank)
  gather_S600000x64_S1200000x1_S1200000x64_1_0_n_n_0_1_164_wf : GatherDims.WF S600000x64 S1200000x1 S1200000x64 [1] [0] [] [0] [] 1 ![1, 64]
  scatter_S600000x64_S1200000x1_S1200000x64_1_0_0_1_wf : ScatterDims.WF S600000x64 S1200000x1 S1200000x64 [1] [0] [0] 1
  gather_S600000x64_S8192x1_S8192x64_1_0_n_n_0_1_164_wf : GatherDims.WF S600000x64 S8192x1 S8192x64 [1] [0] [] [0] [] 1 ![1, 64]
  gather_S400000x64_S8192x1_S8192x64_1_0_n_n_0_1_164_wf : GatherDims.WF S400000x64 S8192x1 S8192x64 [1] [0] [] [0] [] 1 ![1, 64]
  gather_S200000x64_S8192x1_S8192x64_1_0_n_n_0_1_164_wf : GatherDims.WF S200000x64 S8192x1 S8192x64 [1] [0] [] [0] [] 1 ![1, 64]

variable [Facts₀]

def gather_S600000x64_S1200000x1_S1200000x64_1_0_n_n_0_1_164 : GatherDims S600000x64 S1200000x1 S1200000x64 where
  offsetDims := [1]
  collapsedSliceDims := [0]
  operandBatchingDims := []
  startIndicesBatchingDims := []
  startIndexMap := [0]
  indexVectorDim := 1
  sliceSizes := ![1, 64]
  wf := gather_S600000x64_S1200000x1_S1200000x64_1_0_n_n_0_1_164_wf
def scatter_S600000x64_S1200000x1_S1200000x64_1_0_0_1 : ScatterDims S600000x64 S1200000x1 S1200000x64 where
  updateWindowDims := [1]
  insertedWindowDims := [0]
  scatterDimsToOperandDims := [0]
  indexVectorDim := 1
  wf := scatter_S600000x64_S1200000x1_S1200000x64_1_0_0_1_wf
def gather_S600000x64_S8192x1_S8192x64_1_0_n_n_0_1_164 : GatherDims S600000x64 S8192x1 S8192x64 where
  offsetDims := [1]
  collapsedSliceDims := [0]
  operandBatchingDims := []
  startIndicesBatchingDims := []
  startIndexMap := [0]
  indexVectorDim := 1
  sliceSizes := ![1, 64]
  wf := gather_S600000x64_S8192x1_S8192x64_1_0_n_n_0_1_164_wf
def gather_S400000x64_S8192x1_S8192x64_1_0_n_n_0_1_164 : GatherDims S400000x64 S8192x1 S8192x64 where
  offsetDims := [1]
  collapsedSliceDims := [0]
  operandBatchingDims := []
  startIndicesBatchingDims := []
  startIndexMap := [0]
  indexVectorDim := 1
  sliceSizes := ![1, 64]
  wf := gather_S400000x64_S8192x1_S8192x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf

class Facts : Prop extends Facts₀ where

variable [Facts]
-- ==== Proof.Wide.lean ====
/-
  The two whole-array functions the program's two launches compute, stated in the 128-wide layout their windows use.

  The node table has 600000 rows of 64 entries: the 400000 user rows, each entry times its 0/1 mask word read as a
  number, followed by the 200000 item rows, masked likewise. Two consecutive 64-entry rows laid side by side make one
  128-entry row, so the table is also an array of 300000 rows of 128 entries, the first 200000 of which come from the
  user table (itself 200000 rows of 128) and the other 100000 from the item table (100000 rows of 128).
  `nodeTable` is that array, entry by entry. `layerMean` is the entrywise `(((a + b) + c) + d) · ¼` of four such
  arrays: the mean of the table and its three propagated layers.
-/
import proofs.«424377_j11115375362611_3_alg».proof.KernelIdeal
import Idealize.ShloMosaic.Lib.ValueIdx

noncomputable section

namespace Cert.KernelIdeal.Wide

open Idealize.ShloMosaic Idealize.ShloMosaic.ValueIdx Cert.KernelIdeal

variable {F : FTy → Type} [FloatOps F]

/-- The masked node table, 128 wide. Row `h < 200000` is row `h` of the user table times its mask; row `h ≥ 200000` is
    row `h - 200000` of the item table times its mask. -/
def nodeTable (u : Vec F S200000x128 .f32) (um : Vec F S200000x128 .i32) (v : Vec F S100000x128 .f32) (vm : Vec F S100000x128 .i32) :
    Vec F S300000x128 .f32 := fun i =>
  if h : (i 0).val < 200000 then
    FloatOps.mulf (u (ix2 ⟨(i 0).val, h⟩ ⟨(i 1).val, idx2_lt1 i⟩))
      (FloatOps.sitofp .f32 (um (ix2 ⟨(i 0).val, h⟩ ⟨(i 1).val, idx2_lt1 i⟩)))
  else
    FloatOps.mulf (v (ix2 ⟨(i 0).val - 200000, by have := idx2_lt0 i; omega⟩ ⟨(i 1).val, idx2_lt1 i⟩))
      (FloatOps.sitofp .f32 (vm (ix2 ⟨(i 0).val - 200000, by have := idx2_lt0 i; omega⟩ ⟨(i 1).val, idx2_lt1 i⟩)))

/-! ## The node table read at a row of either half -/

/-- An entry of the node table in the user half: the user table's entry at the same coordinates times its mask. -/
theorem nodeTable_user (u : Vec F S200000x128 .f32) (um : Vec F S200000x128 .i32) (v : Vec F S100000x128 .f32) (vm : Vec F S100000x128 .i32)
    (i : S300000x128.Idx) (k : S200000x128.Idx) (h : (i 0).val < 200000) (hk0 : (k 0).val = (i 0).val) (hk1 : (k 1).val = (i 1).val) :
    nodeTable u um v vm i = FloatOps.mulf (u k) (FloatOps.sitofp .f32 (um k)) := by
  have e : k = ix2 ⟨(i 0).val, h⟩ ⟨(i 1).val, idx2_lt1 i⟩ := by
    funext a; apply Fin.ext
    match a with
    | ⟨0, _⟩ => exact hk0
    | ⟨1, _⟩ => exact hk1
  unfold nodeTable
  rw [dif_pos h, e]

/-- An entry of the node table in the item half: the item table's entry 200000 rows up times its mask. -/
theorem nodeTable_item (u : Vec F S200000x128 .f32) (um : Vec F S200000x128 .i32) (v : Vec F S100000x128 .f32) (vm : Vec F S100000x128 .i32)
    (i : S300000x128.Idx) (k : S100000x128.Idx) (h : ¬(i 0).val < 200000) (hk0 : (k 0).val = (i 0).val - 200000) (hk1 : (k 1).val = (i 1).val) :
    nodeTable u um v vm i = FloatOps.mulf (v k) (FloatOps.sitofp .f32 (vm k)) := by
  have e : k = ix2 ⟨(i 0).val - 200000, by have := idx2_lt0 i; omega⟩ ⟨(i 1).val, idx2_lt1 i⟩ := by
    funext a; apply Fin.ext
    match a with
    | ⟨0, _⟩ => exact hk0
    | ⟨1, _⟩ => exact hk1
  unfold nodeTable
  rw [dif_neg h, e]

/-- The mean of four layers, 128 wide: `(((a + b) + c) + d) · ¼` entry by entry, the quarter being the word `0x3E800000`. -/
def layerMean (a b c d : Vec F S300000x128 .f32) : Vec F S300000x128 .f32 :=
  mulf (addf (addf (addf a b) c) d) (broadcast S300000x128 (Scalar.ofBits .f32 0x3E800000#32))

end Cert.KernelIdeal.Wide

end
-- ==== Proof.TableRegion.lean ====
/-
  What the first launch leaves in its output array.

  The launch walks the 300000 × 128 node table in 75 blocks of 4000 rows. At block `t < 50` the body takes the first
  branch: it multiplies block `min t 49 = t` of the user table, entry by entry, by the same block of the user mask read as
  numbers, and stores the product whole. At block `t ≥ 50` it takes the second branch and does the same with block
  `max (t - 50) 0 = t - 50` of the item table and its mask. Exactly one branch runs at every point, so every block is
  written, and block `t` of the output is the restriction of ONE whole-array function, `Wide.nodeTable`: output row
  `4000·t + r` is user row `4000·t + r` when that is below 200000 and item row `4000·t + r - 200000` otherwise.
  The 75 blocks tile the array (row `r` lies in block `r / 4000`), so the array ends holding that function.
-/
import proofs.«424377_j11115375362611_3_alg».proof.Proof.Gen.KernelIdeal.Frame
import proofs.«424377_j11115375362611_3_alg».proof.Proof.Wide
import Idealize.ShloMosaic.Lib.Pipeline.Value
import Idealize.ShloMosaic.Lib.ValueIdx

set_option maxRecDepth 16384

noncomputable section

namespace Cert.KernelIdeal.TableRegion

open Idealize.ShloMosaic Idealize.ShloMosaic.TcCoe Idealize.ShloMosaic.Tactic Idealize.ShloMosaic.ValueIdx Idealize.SL.Sem
open Idealize.ShloMosaic.Pipeline (Dat Cfg Window)
open Cert.KernelIdeal Cert.KernelIdeal.Gen Cert.KernelIdeal.Wide

variable {F : FTy → Type} [FloatOps F]

theorem origin_zero : (![0, 0] : Fin 2 → Nat) = fun _ => 0 := funext fun a => by fin_cases a <;> rfl

/-! ## What each branch leaves in the output's block -/

/-- First branch: the block holds the first operand's block times the second's read as numbers. -/
theorem piece_user (c : Dev nD) (i : grid0.Coords) (a1 : Memref sig .tc .vmem S4000x128 .f32) (h1 : a1.IsWhole)
    (a2 : Memref sig .tc .vmem S4000x128 .i32) (h2 : a2.IsWhole) (a3 : Memref sig .tc .vmem S4000x128 .f32) (h3 : a3.IsWhole)
    (a4 : Memref sig .tc .vmem S4000x128 .i32) (h4 : a4.IsWhole) (a5 : Memref sig .tc .vmem S4000x128 .f32) (h5 : a5.IsWhole)
    (hc0 : cond0_0 i) (hc1 : ¬cond0_1 i)
    (x0 : Vec F S4000x128 .f32) (x1 : Vec F S4000x128 .i32) (x2 : Vec F S4000x128 .f32) (x3 : Vec F S4000x128 .i32) :
    out0_A_4 c i a1 h1 a2 h2 a3 h3 a4 h4 a5 h5 hc0 hc1 x0 x1 x2 x3 = mulf x0 (sitofp .f32 x1) := by
  unfold out0_A_4
  rw [View.read_writes_eq_canon _ _ _ (cover0_A_4 c i a1 h1 a2 h2 a3 h3 a4 h4 a5 h5 hc0 hc1 x0 x1 x2 x3)]
  unfold kernelRun0_A
  dsimp only
  rw [View.canon_unit_zero origin_zero]
  unfold k0_pay1
  simp only [View.readAt_eq_ld, h1.read_unread, h2.read_unread, View.ld_unit_zero (S := S4000x128) origin_zero, shapeCast_self]

/-- Second branch: the same of the third and fourth operands. -/
theorem piece_item (c : Dev nD) (i : grid0.Coords) (a1 : Memref sig .tc .vmem S4000x128 .f32) (h1 : a1.IsWhole)
    (a2 : Memref sig .tc .vmem S4000x128 .i32) (h2 : a2.IsWhole) (a3 : Memref sig .tc .vmem S4000x128 .f32) (h3 : a3.IsWhole)
    (a4 : Memref sig .tc .vmem S4000x128 .i32) (h4 : a4.IsWhole) (a5 : Memref sig .tc .vmem S4000x128 .f32) (h5 : a5.IsWhole)
    (hc0 : ¬cond0_0 i) (hc1 : cond0_1 i)
    (x0 : Vec F S4000x128 .f32) (x1 : Vec F S4000x128 .i32) (x2 : Vec F S4000x128 .f32) (x3 : Vec F S4000x128 .i32) :
    out0_B_4 c i a1 h1 a2 h2 a3 h3 a4 h4 a5 h5 hc0 hc1 x0 x1 x2 x3 = mulf x2 (sitofp .f32 x3) := by
  unfold out0_B_4
  rw [View.read_writes_eq_canon _ _ _ (cover0_B_4 c i a1 h1 a2 h2 a3 h3 a4 h4 a5 h5 hc0 hc1 x0 x1 x2 x3)]
  unfold kernelRun0_B
  dsimp only
  rw [View.canon_unit_zero origin_zero]
  unfold k0_pay2
  simp only [View.readAt_eq_ld, h3.read_unread, h4.read_unread, View.ld_unit_zero (S := S4000x128) origin_zero, shapeCast_self]

/-! ## The blocks and the array -/

variable (V : (c : Dev nD) → (b : Ref sig .tc) → Buf (Elt F) ((c : Thread nD τ).loc b))

/-- The printed index maps, decided over the grid: the user windows sit at block row `min t 49`, the item windows at
    `t - 50` (zero below 50), the output at `t`; all at block column 0. -/
theorem index_facts : ∀ t : Fin cfg0.N,
    win0_0.index t (0 : Fin 2) = min t.val 49 ∧ win0_0.index t (1 : Fin 2) = 0
    ∧ win0_1.index t (0 : Fin 2) = min t.val 49 ∧ win0_1.index t (1 : Fin 2) = 0
    ∧ win0_2.index t (0 : Fin 2) = t.val - 50 ∧ win0_2.index t (1 : Fin 2) = 0
    ∧ win0_3.index t (0 : Fin 2) = t.val - 50 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the node table of the four operand arrays. -/
theorem flushed_eq (c : Dev nD) (t : Fin cfg0.N) :
    (dat0 V c).flushed 4 t
      = ((cfg0.win 4).blk t).view.read (Elt F) (nodeTable (V c main_v0) (V c main_v1) (V c main_v2) (V c main_v3)) := by
  show (cfg0.win 4).cut (grid0.coords t) ((dat0 V c).after 4 t) = _
  rw [after0_4]
  obtain ⟨e00, e01, e10, e11, e20, e21, e30, e31, e40, e41⟩ := index_facts t
  have hN : t.val < 75 := lt_of_lt_of_eq t.isLt (show cfg0.N = 75 from N_0)
  by_cases h0 : t.val < 50
  · have h1 : ¬50 ≤ t.val := by omega
    rw [outsAt0_A V c t h0 h1, piece_user]
    funext j
    have hj0 : (j 0).val < 4000 := (j 0).isLt
    have hj1 : (j 1).val < 128 := (j 1).isLt
    show FloatOps.mulf (V c main_v0 (((cfg0.win 0).blk t).view.emb j)) (FloatOps.sitofp .f32 (V c main_v1 (((cfg0.win 1).blk t).view.emb j)))
      = nodeTable (V c main_v0) (V c main_v1) (V c main_v2) (V c main_v3) (((cfg0.win 4).blk t).view.emb j)
    have r4 : ((((cfg0.win 4).blk t).view.emb j) 0).val = t.val * 4000 + (j 0).val := by
      show win0_4.index t (0 : Fin 2) * 4000 + 1 * (j 0).val = _; omega
    have c4 : ((((cfg0.win 4).blk t).view.emb j) 1).val = (j 1).val := by
      show win0_4.index t (1 : Fin 2) * 128 + 1 * (j 1).val = _; omega
    have r0 : ((((cfg0.win 0).blk t).view.emb j) 0).val = t.val * 4000 + (j 0).val := by
      show win0_0.index t (0 : Fin 2) * 4000 + 1 * (j 0).val = _; omega
    have c0 : ((((cfg0.win 0).blk t).view.emb j) 1).val = (j 1).val := by
      show win0_0.index t (1 : Fin 2) * 128 + 1 * (j 1).val = _; omega
    have e10' : ((cfg0.win 1).blk t).view.emb j = ((cfg0.win 0).blk t).view.emb j := by
      funext a; apply Fin.ext
      match a with
      | ⟨0, _⟩ => show win0_1.index t (0 : Fin 2) * 4000 + 1 * (j 0).val = win0_0.index t (0 : Fin 2) * 4000 + 1 * (j 0).val; omega
      | ⟨1, _⟩ => show win0_1.index t (1 : Fin 2) * 128 + 1 * (j 1).val = win0_0.index t (1 : Fin 2) * 128 + 1 * (j 1).val; omega
    rw [e10']
    exact (nodeTable_user _ _ _ _ _ (((cfg0.win 0).blk t).view.emb j) (by rw [r4]; omega) (by rw [r0, r4]) (by rw [c0, c4])).symm
  · have h1 : 50 ≤ t.val := by omega
    rw [outsAt0_B V c t h0 h1, piece_item]
    funext j
    have hj0 : (j 0).val < 4000 := (j 0).isLt
    have hj1 : (j 1).val < 128 := (j 1).isLt
    show FloatOps.mulf (V c main_v2 (((cfg0.win 2).blk t).view.emb j)) (FloatOps.sitofp .f32 (V c main_v3 (((cfg0.win 3).blk t).view.emb j)))
      = nodeTable (V c main_v0) (V c main_v1) (V c main_v2) (V c main_v3) (((cfg0.win 4).blk t).view.emb j)
    have r4 : ((((cfg0.win 4).blk t).view.emb j) 0).val = t.val * 4000 + (j 0).val := by
      show win0_4.index t (0 : Fin 2) * 4000 + 1 * (j 0).val = _; omega
    have c4 : ((((cfg0.win 4).blk t).view.emb j) 1).val = (j 1).val := by
      show win0_4.index t (1 : Fin 2) * 128 + 1 * (j 1).val = _; omega
    have r2 : ((((cfg0.win 2).blk t).view.emb j) 0).val = (t.val - 50) * 4000 + (j 0).val := by
      show win0_2.index t (0 : Fin 2) * 4000 + 1 * (j 0).val = _; omega
    have c2 : ((((cfg0.win 2).blk t).view.emb j) 1).val = (j 1).val := by
      show win0_2.index t (1 : Fin 2) * 128 + 1 * (j 1).val = _; omega
    have e32 : ((cfg0.win 3).blk t).view.emb j = ((cfg0.win 2).blk t).view.emb j := by
      funext a; apply Fin.ext
      match a with
      | ⟨0, _⟩ => show win0_3.index t (0 : Fin 2) * 4000 + 1 * (j 0).val = win0_2.index t (0 : Fin 2) * 4000 + 1 * (j 0).val; omega
      | ⟨1, _⟩ => show win0_3.index t (1 : Fin 2) * 128 + 1 * (j 1).val = win0_2.index t (1 : Fin 2) * 128 + 1 * (j 1).val; omega
    rw [e32]
    exact (nodeTable_item _ _ _ _ _ (((cfg0.win 2).blk t).view.emb j) (by rw [r4]; omega) (by rw [r2, r4]; omega) (by rw [c2, c4])).symm

/-- An index of the output array is in point `t`'s block iff each coordinate is in the block's range on its axis. -/
theorem mem_block (t : Fin cfg0.N) (i : S300000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v4).slice (win0_4.rect t)).set ↔ _
  rw [View.set_slice_whole, Rect.mem_set_unit]
  exact Iff.rfl

/-- Every row of the output lies in a block: row `r` in block `r / 4000`. -/
theorem covered (i : S300000x128.Idx) : ∃ t : Fin cfg0.N, (cfg0.win 4).flush t = true ∧ i ∈ ((cfg0.win 4).blk t).view.set := by
  have hi0 : (i 0).val < 300000 := idx2_lt0 i
  have hi1 : (i 1).val < 128 := idx2_lt1 i
  have hN : cfg0.N = 75 := N_0
  let t : Fin cfg0.N := ⟨(i 0).val / 4000, by rw [hN]; omega⟩
  obtain ⟨e00, e01, e10, e11, e20, e21, e30, e31, e40, e41⟩ := index_facts t
  have q0 : win0_4.index t (0 : Fin 2) = (i 0).val / 4000 := e40
  refine ⟨t, flush0_4 t, ?_⟩
  rw [mem_block]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The output array after the launch is the node table of the four operand arrays as the launch found them. -/
theorem final (c : Dev nD) :
    (dat0 V c).arrAt 4 cfg0.N = nodeTable (V c main_v0) (V c main_v1) (V c main_v2) (V c main_v3) :=
  (dat0 V c).arrAt_eq_of_cover 4 _ (fun t _ => flushed_eq V c t) covered

end Cert.KernelIdeal.TableRegion

end
-- ==== Proof.MeanRegion.lean ====
/-
  What the second launch leaves in its output array.

  The launch walks the 300000 × 128 array in 125 blocks of 2400 rows; at block `t` it reads rows
  `2400·t … 2400·t + 2399` of its four operands and writes the same rows of the output with
  `(((a + b) + c) + d) · ¼`, entry by entry. Each block of the output is therefore the restriction of ONE whole-array
  function, `Wide.layerMean` of the four operand arrays, and the 125 blocks tile the array (row `r` lies in block
  `r / 2400`), so the array ends holding that function.
-/
import proofs.«424377_j11115375362611_3_alg».proof.Proof.Gen.KernelIdeal.Frame
import proofs.«424377_j11115375362611_3_alg».proof.Proof.Wide
import Idealize.ShloMosaic.Lib.Pipeline.Value
import Idealize.ShloMosaic.Lib.ValueIdx

set_option maxRecDepth 16384

noncomputable section

namespace Cert.KernelIdeal.MeanRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Wide

variable {F : FTy → Type} [FloatOps F]
variable (V : (c : Dev nD) → (b : Ref sig .tc) → Buf (Elt F) ((c : Thread nD τ).loc b))

theorem origin_zero : (![0, 0] : Fin 2 → Nat) = fun _ => 0 := funext fun a => by fin_cases a <;> rfl

/-- The body's one stored value is the entrywise mean of its four loaded blocks (a cast to the same shape is the identity). -/
theorem payload_eq (x0 x1 x2 x3 : Vec F S2400x128 .f32) :
    k1_pay1 x0 x1 x2 x3 = mulf (addf (addf (addf x0 x1) x2) x3) (broadcast S2400x128 (Scalar.ofBits .f32 0x3E800000#32)) := by
  unfold k1_pay1
  simp only [shapeCast_self]

/-- Every window of the launch sits at block row `t`, block column `0`, at grid point `t`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the mean of the four operand arrays. -/
theorem flushed_eq (c : Dev nD) (t : Fin cfg1.N) :
    (dat1 V c).flushed 4 t
      = ((cfg1.win 4).blk t).view.read (Elt F) (layerMean (V c main_v45) (V c main_v46) (V c main_v47) (V c main_v48)) := by
  show (cfg1.win 4).cut (grid1.coords t) ((dat1 V c).after 4 t) = _
  rw [after1_4]
  unfold out1_4
  rw [View.canon_unit_zero origin_zero]
  simp only [View.ld_unit_zero (S := S2400x128) origin_zero]
  rw [payload_eq]
  obtain ⟨e00, e01, e10, e11, e20, e21, e30, e31, e40, e41⟩ := index_facts t
  funext j
  show FloatOps.mulf (FloatOps.addf (FloatOps.addf (FloatOps.addf
        (V c main_v45 (((cfg1.win 0).blk t).view.emb j)) (V c main_v46 (((cfg1.win 1).blk t).view.emb j)))
        (V c main_v47 (((cfg1.win 2).blk t).view.emb j))) (V c main_v48 (((cfg1.win 3).blk t).view.emb j)))
        (Scalar.ofBits .f32 0x3E800000#32)
      = FloatOps.mulf (FloatOps.addf (FloatOps.addf (FloatOps.addf
        (V c main_v45 (((cfg1.win 4).blk t).view.emb j)) (V c main_v46 (((cfg1.win 4).blk t).view.emb j)))
        (V c main_v47 (((cfg1.win 4).blk t).view.emb j))) (V c main_v48 (((cfg1.win 4).blk t).view.emb j)))
        (Scalar.ofBits .f32 0x3E800000#32)
  have h0 : ((cfg1.win 0).blk t).view.emb j = ((cfg1.win 4).blk t).view.emb j := by
    funext a; apply Fin.ext
    match a with
    | ⟨0, _⟩ => show win1_0.index t (0 : Fin 2) * 2400 + 1 * (j 0).val = win1_4.index t (0 : Fin 2) * 2400 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 2400 + 1 * (j 0).val = win1_4.index t (0 : Fin 2) * 2400 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb j = ((cfg1.win 4).blk t).view.emb j := by
    funext a; apply Fin.ext
    match a with
    | ⟨0, _⟩ => show win1_2.index t (0 : Fin 2) * 2400 + 1 * (j 0).val = win1_4.index t (0 : Fin 2) * 2400 + 1 * (j 0).val; omega
    | ⟨1, _⟩ => show win1_2.index t (1 : Fin 2) * 128 + 1 * (j 1).val = win1_4.index t (1 : Fin 2) * 128 + 1 * (j 1).val; omega
  have h3 : ((cfg1.win 3).blk t).view.emb j = ((cfg1.win 4).blk t).view.emb j := by
    funext a; apply Fin.ext
    match a with
    | ⟨0, _⟩ => show win1_3.index t (0 : Fin 2) * 2400 + 1 * (j 0).val = win1_4.index t (0 : Fin 2) * 2400 + 1 * (j 0).val; omega
    | ⟨1, _⟩ => show win1_3.index t (1 : Fin 2) * 128 + 1 * (j 1).val = win1_4.index t (1 : Fin 2) * 128 + 1 * (j 1).val; omega
  rw [h0, h1, h2, h3]

/-- An index of the output array is in point `t`'s block iff each coordinate is in the block's range on its axis. -/
theorem mem_block (t : Fin cfg1.N) (i : S300000x128.Idx) :
    i ∈ ((cfg1.win 4).blk t).view.set ↔ ∀ a : Fin 2, win1_4.index t a * S2400x128.size a ≤ (i a).val ∧ (i a).val < win1_4.index t a * S2400x128.size a + S2400x128.size a := by
  show i ∈ ((View.whole main_v49).slice (win1_4.rect t)).set ↔ _
  rw [View.set_slice_whole, Rect.mem_set_unit]
  exact Iff.rfl

/-- Every row of the output lies in a block: row `r` in block `r / 2400`. -/
theorem covered (i : S300000x128.Idx) : ∃ t : Fin cfg1.N, (cfg1.win 4).flush t = true ∧ i ∈ ((cfg1.win 4).blk t).view.set := by
  have hi0 : (i 0).val < 300000 := idx2_lt0 i
  have hi1 : (i 1).val < 128 := idx2_lt1 i
  have hN : cfg1.N = 125 := N_1
  let t : Fin cfg1.N := ⟨(i 0).val / 2400, by rw [hN]; omega⟩
  obtain ⟨e00, e01, e10, e11, e20, e21, e30, e31, e40, e41⟩ := index_facts t
  have q0 : win1_4.index t (0 : Fin 2) = (i 0).val / 2400 := e40
  refine ⟨t, flush1_4 t, ?_⟩
  rw [mem_block]
  intro a
  match a with
  | ⟨0, _⟩ => show win1_4.index t (0 : Fin 2) * 2400 ≤ (i 0).val ∧ (i 0).val < win1_4.index t (0 : Fin 2) * 2400 + 2400; omega
  | ⟨1, _⟩ => show win1_4.index t (1 : Fin 2) * 128 ≤ (i 1).val ∧ (i 1).val < win1_4.index t (1 : Fin 2) * 128 + 128; omega

/-- The output array after the launch is the mean of the four operand arrays as the launch found them. -/
theorem final (c : Dev nD) :
    (dat1 V c).arrAt 4 cfg1.N = layerMean (V c main_v45) (V c main_v46) (V c main_v47) (V c main_v48) :=
  (dat1 V c).arrAt_eq_of_cover 4 _ (fun t _ => flushed_eq V c t) covered

end Cert.KernelIdeal.MeanRegion

end
-- ==== Proof.Layers.lean ====
/-
  Both programs' results as functions of the ten argument arrays, and the laws that join them.

  Write `T` for the masked node table (user rows times their masks, then item rows times theirs), `P` for one
  propagation step through the adjacency list, and `L = (((T + P T) + P (P T)) + P (P (P T))) / 4` for the pooled table.
  The reference returns rows of `L` picked by the user, positive-item and negative-item numbers, and the picked rows of
  the two raw tables times the picked rows of their masks. The kernel's program computes `T` in a 128-wide layout, feeds
  the SAME propagation steps, pools in the 128-wide layout with `· ¼` in place of `/ 4`, and picks rows with the SAME
  gathers, converting a picked mask row to numbers after the gather instead of before.
  Three laws join them: the 128-wide table read back 64 wide is the concatenation `T` (row-major positions agree);
  pooling 128 wide and reading back is pooling 64 wide, and on every extended real `x / 4 = x · ¼` (the divisor is
  the real 4, the factor the real ¼); and a gather picks entries, so converting after it or before it is the same.
-/
import proofs.«424377_j11115375362611_3_alg».proof.Proof.Gen.KernelIdeal
import proofs.«424377_j11115375362611_3_alg».proof.Proof.Gen.ReferenceIdeal
import proofs.«424377_j11115375362611_3_alg».proof.Proof.Wide
import Idealize.ShloMosaic.PureOps.Ideal
import Idealize.ShloMosaic.Lib.ValueIdx
import Idealize.ShloMosaic.Lib.Pipeline.Value

noncomputable section

namespace Cert.Layers

open Idealize.ShloMosaic Idealize.ShloMosaic.ValueIdx

variable {F : FTy → Type} [FloatOps F]

section K
open Cert.KernelIdeal Cert.KernelIdeal.Facts₀

/-- A vector of row numbers made ready for a gather along an axis of length `n`: a negative number counts from the end, and
    the vector becomes a column of start indices. -/
def wrapK (n : BitVec 32) (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 n))) i)

/-- One propagation step through the adjacency list: entry `e` of the list sends `val e` times row `col e` of `x`
    (a negative `col e` counting from the end) to row `row e`, and each row of the result is the sum of what it receives. -/
def spmmK (x : FVec F S600000x64 .f32) (row col : IVec S1200000 32) (val : FVec F S1200000 .f32) : FVec F S600000x64 .f32 :=
  Host.scatterAdd scatter_S600000x64_S1200000x1_S1200000x64_1_0_0_1
    (broadcastInDim S600000x64 ![] bcast_S_S600000x64 (constant S_ .f32 0x00000000#32))
    (broadcastInDim S1200000x1 ![0] bcast_S1200000_S1200000x1_0 row)
    (mulf (broadcastInDim S1200000x64 ![0, 1] bcast_S1200000x1_S1200000x64_0_1 (broadcastInDim S1200000x1 ![0] bcast_S1200000_S1200000x1_0 val))
      (Host.gather gather_S600000x64_S1200000x1_S1200000x64_1_0_n_n_0_1_164 x
        (broadcastInDim S1200000x1 ![0] bcast_S1200000_S1200000x1_0
          (select (cmpi .slt col (broadcastInDim S1200000 ![] bcast_S_S1200000 (constantI S_ 32 0#32)))
            (addi col (broadcastInDim S1200000 ![] bcast_S_S1200000 (constantI S_ 32 600000#32))) col))))

/-- The rows of the pooled table picked by a vector of row numbers. -/
def pickK (x : FVec F S600000x64 .f32) (i : IVec S8192 32) : FVec F S8192x64 .f32 :=
  Host.gather gather_S600000x64_S8192x1_S8192x64_1_0_n_n_0_1_164 x (wrapK 600000#32 i)

/-- Item numbers moved past the 400000 user rows. -/
def shiftK (i : IVec S8192 32) : IVec S8192 32 :=
  addi (broadcastInDim S8192 ![] bcast_S_S8192 (constantI S_ 32 400000#32)) i

end K

section R
open Cert.ReferenceIdeal Cert.ReferenceIdeal.Facts₀

/-- A vector of row numbers made ready for a gather along an axis of length `n`: a negative number counts from the end, and
    the vector becomes a column of start indices. -/
def wrapR (n : BitVec 32) (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 n))) i)

/-- One propagation step through the adjacency list: entry `e` of the list sends `val e` times row `col e` of `x`
    (a negative `col e` counting from the end) to row `row e`, and each row of the result is the sum of what it receives. -/
def spmmR (x : FVec F S600000x64 .f32) (row col : IVec S1200000 32) (val : FVec F S1200000 .f32) : FVec F S600000x64 .f32 :=
  Host.scatterAdd scatter_S600000x64_S1200000x1_S1200000x64_1_0_0_1
    (broadcastInDim S600000x64 ![] bcast_S_S600000x64 (constant S_ .f32 0x00000000#32))
    (broadcastInDim S1200000x1 ![0] bcast_S1200000_S1200000x1_0 row)
    (mulf (broadcastInDim S1200000x64 ![0, 1] bcast_S1200000x1_S1200000x64_0_1 (broadcastInDim S1200000x1 ![0] bcast_S1200000_S1200000x1_0 val))
      (Host.gather gather_S600000x64_S1200000x1_S1200000x64_1_0_n_n_0_1_164 x
        (broadcastInDim S1200000x1 ![0] bcast_S1200000_S1200000x1_0
          (select (cmpi .slt col (broadcastInDim S1200000 ![] bcast_S_S1200000 (constantI S_ 32 0#32)))
            (addi col (broadcastInDim S1200000 ![] bcast_S_S1200000 (constantI S_ 32 600000#32))) col))))

/-- The rows of the pooled table picked by a vector of row numbers. -/
def pickR (x : FVec F S600000x64 .f32) (i : IVec S8192 32) : FVec F S8192x64 .f32 :=
  Host.gather gather_S600000x64_S8192x1_S8192x64_1_0_n_n_0_1_164 x (wrapR 600000#32 i)

/-- Item numbers moved past the 400000 user rows. -/
def shiftR (i : IVec S8192 32) : IVec S8192 32 :=
  addi (broadcastInDim S8192 ![] bcast_S_S8192 (constantI S_ 32 400000#32)) i

end R

/-! ## The kernel's program -/

section KernelSide
open Cert.KernelIdeal Cert.KernelIdeal.Facts₀ Cert.KernelIdeal.Wide

/-- The node table as the kernel's program builds it: the four tables read 128 wide, the first launch's array, read back
    64 wide. -/
def tableK (a0 : FVec F S400000x64 .f32) (a1 : FVec F S200000x64 .f32) (a2 : IVec S400000x64 32) (a3 : IVec S200000x64 32) :
    FVec F S600000x64 .f32 :=
  shapeCast S600000x64
    (nodeTable (shapeCast S200000x128 a0 shapeCasts_S400000x64_S200000x128) (shapeCast S200000x128 a2 shapeCasts_S400000x64_S200000x128)
      (shapeCast S100000x128 a1 shapeCasts_S200000x64_S100000x128) (shapeCast S100000x128 a3 shapeCasts_S200000x64_S100000x128))
    shapeCasts_S300000x128_S600000x64

/-- The pooled table as the kernel's program computes it from four layers: each read 128 wide, the second launch's
    array, read back 64 wide. -/
def poolK (x0 x1 x2 x3 : FVec F S600000x64 .f32) : FVec F S600000x64 .f32 :=
  shapeCast S600000x64
    (layerMean (shapeCast S300000x128 x0 shapeCasts_S600000x64_S300000x128) (shapeCast S300000x128 x1 shapeCasts_S600000x64_S300000x128)
      (shapeCast S300000x128 x2 shapeCasts_S600000x64_S300000x128) (shapeCast S300000x128 x3 shapeCasts_S600000x64_S300000x128))
    shapeCasts_S300000x128_S600000x64

/-- The kernel program's pooled table, from the arguments. -/
def lightK (a0 : FVec F S400000x64 .f32) (a1 : FVec F S200000x64 .f32) (a2 : IVec S400000x64 32) (a3 : IVec S200000x64 32)
    (row col : IVec S1200000 32) (val : FVec F S1200000 .f32) : FVec F S600000x64 .f32 :=
  poolK (tableK a0 a1 a2 a3) (spmmK (tableK a0 a1 a2 a3) row col val)
    (spmmK (spmmK (tableK a0 a1 a2 a3) row col val) row col val)
    (spmmK (spmmK (spmmK (tableK a0 a1 a2 a3) row col val) row col val) row col val)

/-- Picked rows of a raw user table times the picked rows of its mask, the mask converted after the gather. -/
def egoUserK (a : FVec F S400000x64 .f32) (am : IVec S400000x64 32) (i : IVec S8192 32) : FVec F S8192x64 .f32 :=
  mulf (Host.gather gather_S400000x64_S8192x1_S8192x64_1_0_n_n_0_1_164 a (wrapK 400000#32 i))
    (sitofp .f32 (Host.gather gather_S400000x64_S8192x1_S8192x64_1_0_n_n_0_1_164 am (wrapK 400000#32 i)))

/-- The same of a raw item table. -/
def egoItemK (a : FVec F S200000x64 .f32) (am : IVec S200000x64 32) (i : IVec S8192 32) : FVec F S8192x64 .f32 :=
  mulf (Host.gather gather_S200000x64_S8192x1_S8192x64_1_0_n_n_0_1_164 a (wrapK 200000#32 i))
    (sitofp .f32 (Host.gather gather_S200000x64_S8192x1_S8192x64_1_0_n_n_0_1_164 am (wrapK 200000#32 i)))

end KernelSide

/-! ## The reference -/

section ReferenceSide
open Cert.ReferenceIdeal Cert.ReferenceIdeal.Facts₀

/-- The node table: the masked user rows, then the masked item rows. -/
def tableR (a0 : FVec F S400000x64 .f32) (a1 : FVec F S200000x64 .f32) (a2 : IVec S400000x64 32) (a3 : IVec S200000x64 32) :
    FVec F S600000x64 .f32 :=
  concatenate S600000x64 0 [⟨S400000x64, (mulf a0 (sitofp .f32 a2))⟩, ⟨S200000x64, (mulf a1 (sitofp .f32 a3))⟩] concatenates_S400000x64_S200000x64_S600000x64_d0

/-- The mean of four layers: their sum, left to right, over 4. -/
def poolR (x0 x1 x2 x3 : FVec F S600000x64 .f32) : FVec F S600000x64 .f32 :=
  Host.divf (addf (addf (addf x0 x1) x2) x3) (broadcastInDim S600000x64 ![] bcast_S_S600000x64 (constant S_ .f32 0x40800000#32))

/-- The reference's pooled table, from the arguments. -/
def lightR (a0 : FVec F S400000x64 .f32) (a1 : FVec F S200000x64 .f32) (a2 : IVec S400000x64 32) (a3 : IVec S200000x64 32)
    (row col : IVec S1200000 32) (val : FVec F S1200000 .f32) : FVec F S600000x64 .f32 :=
  poolR (tableR a0 a1 a2 a3) (spmmR (tableR a0 a1 a2 a3) row col val)
    (spmmR (spmmR (tableR a0 a1 a2 a3) row col val) row col val)
    (spmmR (spmmR (spmmR (tableR a0 a1 a2 a3) row col val) row col val) row col val)

/-- Picked rows of a raw user table times the picked rows of its mask, the mask converted before the gather. -/
def egoUserR (a : FVec F S400000x64 .f32) (am : IVec S400000x64 32) (i : IVec S8192 32) : FVec F S8192x64 .f32 :=
  mulf (Host.gather gather_S400000x64_S8192x1_S8192x64_1_0_n_n_0_1_164 a (wrapR 400000#32 i))
    (Host.gather gather_S400000x64_S8192x1_S8192x64_1_0_n_n_0_1_164 (sitofp .f32 am) (wrapR 400000#32 i))

/-- The same of a raw item table. -/
def egoItemR (a : FVec F S200000x64 .f32) (am : IVec S200000x64 32) (i : IVec S8192 32) : FVec F S8192x64 .f32 :=
  mulf (Host.gather gather_S200000x64_S8192x1_S8192x64_1_0_n_n_0_1_164 a (wrapR 200000#32 i))
    (Host.gather gather_S200000x64_S8192x1_S8192x64_1_0_n_n_0_1_164 (sitofp .f32 am) (wrapR 200000#32 i))

end ReferenceSide

end Cert.Layers

end
-- ==== Proof.Middle.lean ====
/-
  The host operations between the two launches, read at the four arrays the second launch takes: from ANY contents `X`
  of the buffers, they hold the first launch's array read 64 wide, and that array after one, two and three propagation
  steps through the adjacency list, each read 128 wide again. The first stretch (four reshapes of the arguments) and the
  buffers no operation of a stretch writes are read the same way.
-/
import proofs.«424377_j11115375362611_3_alg».proof.Proof.Gen.KernelIdeal.Launch
import proofs.«424377_j11115375362611_3_alg».proof.Proof.Layers
import Idealize.ShloMosaic.Lib.StableHlo.Run

set_option maxRecDepth 16384

noncomputable section

namespace Cert.KernelIdeal.Middle

open Idealize.ShloMosaic Idealize.ShloMosaic.TcCoe Idealize.SL.Sem Idealize.ShloMosaic.StableHlo
open Cert.KernelIdeal Cert.KernelIdeal.Gen Cert.Layers

variable {F : FTy → Type} [FloatOps F]
variable (X : Valuation τ sig (Elt F))

/-! ## Before the first launch: the four tables read 128 wide -/

theorem first_v0 : StableHlo.after hostOps0 X (Proc.devRef .tc main_v0) = shapeCast S200000x128 (X (Proc.devRef .tc main_arg0)) shapeCasts_S400000x64_S200000x128 := by
  after_results; rfl
theorem first_v1 : StableHlo.after hostOps0 X (Proc.devRef .tc main_v1) = shapeCast S200000x128 (X (Proc.devRef .tc main_arg2)) shapeCasts_S400000x64_S200000x128 := by
  after_results; rfl
theorem first_v2 : StableHlo.after hostOps0 X (Proc.devRef .tc main_v2) = shapeCast S100000x128 (X (Proc.devRef .tc main_arg1)) shapeCasts_S200000x64_S100000x128 := by
  after_results; rfl
theorem first_v3 : StableHlo.after hostOps0 X (Proc.devRef .tc main_v3) = shapeCast S100000x128 (X (Proc.devRef .tc main_arg3)) shapeCasts_S200000x64_S100000x128 := by
  after_results; rfl
theorem first_arg0 : StableHlo.after hostOps0 X (Proc.devRef .tc main_arg0) = X (Proc.devRef .tc main_arg0) := by
  after_results
theorem first_arg1 : StableHlo.after hostOps0 X (Proc.devRef .tc main_arg1) = X (Proc.devRef .tc main_arg1) := by
  after_results
theorem first_arg2 : StableHlo.after hostOps0 X (Proc.devRef .tc main_arg2) = X (Proc.devRef .tc main_arg2) := by
  after_results
theorem first_arg3 : StableHlo.after hostOps0 X (Proc.devRef .tc main_arg3) = X (Proc.devRef .tc main_arg3) := by
  after_results
theorem first_arg4 : StableHlo.after hostOps0 X (Proc.devRef .tc main_arg4) = X (Proc.devRef .tc main_arg4) := by
  after_results
theorem first_arg5 : StableHlo.after hostOps0 X (Proc.devRef .tc main_arg5) = X (Proc.devRef .tc main_arg5) := by
  after_results
theorem first_arg6 : StableHlo.after hostOps0 X (Proc.devRef .tc main_arg6) = X (Proc.devRef .tc main_arg6) := by
  after_results
theorem first_arg7 : StableHlo.after hostOps0 X (Proc.devRef .tc main_arg7) = X (Proc.devRef .tc main_arg7) := by
  after_results
theorem first_arg8 : StableHlo.after hostOps0 X (Proc.devRef .tc main_arg8) = X (Proc.devRef .tc main_arg8) := by
  after_results
theorem first_arg9 : StableHlo.after hostOps0 X (Proc.devRef .tc main_arg9) = X (Proc.devRef .tc main_arg9) := by
  after_results

/-! ## Between the launches -/

/-- The first launch's array read 64 wide. -/
abbrev table64 : FVec F S600000x64 .f32 := shapeCast S600000x64 (X (Proc.devRef .tc main_v4)) shapeCasts_S300000x128_S600000x64

theorem mid_v45 : StableHlo.after hostOps1 X (Proc.devRef .tc main_v45) = shapeCast S300000x128 (table64 X) shapeCasts_S600000x64_S300000x128 := by
  after_results_simp; rfl
theorem mid_v46 : StableHlo.after hostOps1 X (Proc.devRef .tc main_v46)
    = shapeCast S300000x128 (spmmK (table64 X) (X (Proc.devRef .tc main_arg4)) (X (Proc.devRef .tc main_arg5)) (X (Proc.devRef .tc main_arg6))) shapeCasts_S600000x64_S300000x128 := by
  after_results_simp; rfl
theorem mid_v47 : StableHlo.after hostOps1 X (Proc.devRef .tc main_v47)
    = shapeCast S300000x128 (spmmK (spmmK (table64 X) (X (Proc.devRef .tc main_arg4)) (X (Proc.devRef .tc main_arg5)) (X (Proc.devRef .tc main_arg6))) (X (Proc.devRef .tc main_arg4)) (X (Proc.devRef .tc main_arg5)) (X (Proc.devRef .tc main_arg6))) shapeCasts_S600000x64_S300000x128 := by
  after_results_simp; rfl
theorem mid_v48 : StableHlo.after hostOps1 X (Proc.devRef .tc main_v48)
    = shapeCast S300000x128 (spmmK (spmmK (spmmK (table64 X) (X (Proc.devRef .tc main_arg4)) (X (Proc.devRef .tc main_arg5)) (X (Proc.devRef .tc main_arg6))) (X (Proc.devRef .tc main_arg4)) (X (Proc.devRef .tc main_arg5)) (X (Proc.devRef .tc main_arg6))) (X (Proc.devRef .tc main_arg4)) (X (Proc.devRef .tc main_arg5)) (X (Proc.devRef .tc main_arg6))) shapeCasts_S600000x64_S300000x128 := by
  after_results_simp; rfl
theorem mid_arg0 : StableHlo.after hostOps1 X (Proc.devRef .tc main_arg0) = X (Proc.devRef .tc main_arg0) := by
  after_results_simp
theorem mid_arg1 : StableHlo.after hostOps1 X (Proc.devRef .tc main_arg1) = X (Proc.devRef .tc main_arg1) := by
  after_results_simp
theorem mid_arg2 : StableHlo.after hostOps1 X (Proc.devRef .tc main_arg2) = X (Proc.devRef .tc main_arg2) := by
  after_results_simp
theorem mid_arg3 : StableHlo.after hostOps1 X (Proc.devRef .tc main_arg3) = X (Proc.devRef .tc main_arg3) := by
  after_results_simp
theorem mid_arg7 : StableHlo.after hostOps1 X (Proc.devRef .tc main_arg7) = X (Proc.devRef .tc main_arg7) := by
  after_results_simp
theorem mid_arg8 : StableHlo.after hostOps1 X (Proc.devRef .tc main_arg8) = X (Proc.devRef .tc main_arg8) := by
  after_results_simp
theorem mid_arg9 : StableHlo.after hostOps1 X (Proc.devRef .tc main_arg9) = X (Proc.devRef .tc main_arg9) := by
  after_results_simp

end Cert.KernelIdeal.Middle

end
-- ==== Proof.Tail.lean ====
/-
  The host operations after the second launch, read at the six results: from ANY contents `X` of the buffers, the
  first three are rows of the second launch's array (read 64 wide) picked by the user numbers and by the two item
  numbers moved past the user rows; the last three are picked rows of a raw table times the picked rows of its mask.
-/
import proofs.«424377_j11115375362611_3_alg».proof.Proof.Gen.KernelIdeal.Launch
import proofs.«424377_j11115375362611_3_alg».proof.Proof.Layers
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.Layers

variable {F : FTy → Type} [FloatOps F]
variable (X : Valuation τ sig (Elt F))

/-- The second launch's array read 64 wide. -/
abbrev pooled64 : FVec F S600000x64 .f32 := shapeCast S600000x64 (X (Proc.devRef .tc main_v49)) shapeCasts_S300000x128_S600000x64

theorem tail_v57 : StableHlo.after hostOps2 X (Proc.devRef .tc main_v57) = pickK (pooled64 X) (X (Proc.devRef .tc main_arg7)) := by
  after_results_simp; rfl
theorem tail_v66 : StableHlo.after hostOps2 X (Proc.devRef .tc main_v66) = pickK (pooled64 X) (shiftK (X (Proc.devRef .tc main_arg8))) := by
  after_results_simp; rfl
theorem tail_v75 : StableHlo.after hostOps2 X (Proc.devRef .tc main_v75) = pickK (pooled64 X) (shiftK (X (Proc.devRef .tc main_arg9))) := by
  after_results_simp; rfl
theorem tail_v91 : StableHlo.after hostOps2 X (Proc.devRef .tc main_v91) = egoUserK (X (Proc.devRef .tc main_arg0)) (X (Proc.devRef .tc main_arg2)) (X (Proc.devRef .tc main_arg7)) := by
  after_results_simp; rfl
theorem tail_v107 : StableHlo.after hostOps2 X (Proc.devRef .tc main_v107) = egoItemK (X (Proc.devRef .tc main_arg1)) (X (Proc.devRef .tc main_arg3)) (X (Proc.devRef .tc main_arg8)) := by
  after_results_simp; rfl
theorem tail_v123 : StableHlo.after hostOps2 X (Proc.devRef .tc main_v123) = egoItemK (X (Proc.devRef .tc main_arg1)) (X (Proc.devRef .tc main_arg3)) (X (Proc.devRef .tc main_arg9)) := by
  after_results_simp; rfl

end Cert.KernelIdeal.Tail

end
-- ==== Proof.Results.lean ====
/-
  The kernel's program run whole, its six results named as functions of the arguments.

  The contents of the buffers are followed from the launch: four reshapes put the tables 128 wide; the first launch
  leaves the masked node table there (TableRegion); the middle stretch reads it back 64 wide, propagates it three times
  and puts the four layers 128 wide; the second launch leaves their mean there (MeanRegion); the last stretch reads
  it back and picks the rows. No stretch and no launch writes an argument, so every argument an operation reads holds
  what was launched.
-/
import proofs.«424377_j11115375362611_3_alg».proof.Proof.Gen.KernelIdeal.Frame
import proofs.«424377_j11115375362611_3_alg».proof.Proof.WholeRun
import proofs.«424377_j11115375362611_3_alg».proof.Proof.TableRegion
import proofs.«424377_j11115375362611_3_alg».proof.Proof.MeanRegion
import proofs.«424377_j11115375362611_3_alg».proof.Proof.Middle
import proofs.«424377_j11115375362611_3_alg».proof.Proof.Tail
import proofs.«424377_j11115375362611_3_alg».proof.Proof.Layers

set_option maxRecDepth 16384

noncomputable section

namespace Cert.KernelIdeal.Results

open Idealize.ShloMosaic Idealize.ShloMosaic.TcCoe Idealize.SL.Sem Idealize.ShloMosaic.StableHlo
open Cert.KernelIdeal Cert.KernelIdeal.Gen Cert.KernelIdeal.Wide Cert.Layers

variable {F : FTy → Type} [FloatOps F]
variable (m : (ℓ : Loc nD τ sig) → Buf (Elt F) ℓ) (ρ : Dev nD → PrngReg)

/-! ## The arguments when the first launch ends and when the second does -/

theorem W2_arg0 (c : Dev nD) : W2 m ρ c (Proc.devRef .tc main_arg0) = m ((c : Thread nD τ).loc main_arg0) :=
  ((W2_of_ne m ρ c main_arg0 (by decide)).trans (Middle.first_arg0 (W0 m ρ c))).trans rfl
theorem W2_arg1 (c : Dev nD) : W2 m ρ c (Proc.devRef .tc main_arg1) = m ((c : Thread nD τ).loc main_arg1) :=
  ((W2_of_ne m ρ c main_arg1 (by decide)).trans (Middle.first_arg1 (W0 m ρ c))).trans rfl
theorem W2_arg2 (c : Dev nD) : W2 m ρ c (Proc.devRef .tc main_arg2) = m ((c : Thread nD τ).loc main_arg2) :=
  ((W2_of_ne m ρ c main_arg2 (by decide)).trans (Middle.first_arg2 (W0 m ρ c))).trans rfl
theorem W2_arg3 (c : Dev nD) : W2 m ρ c (Proc.devRef .tc main_arg3) = m ((c : Thread nD τ).loc main_arg3) :=
  ((W2_of_ne m ρ c main_arg3 (by decide)).trans (Middle.first_arg3 (W0 m ρ c))).trans rfl
theorem W2_arg4 (c : Dev nD) : W2 m ρ c (Proc.devRef .tc main_arg4) = m ((c : Thread nD τ).loc main_arg4) :=
  ((W2_of_ne m ρ c main_arg4 (by decide)).trans (Middle.first_arg4 (W0 m ρ c))).trans rfl
theorem W2_arg5 (c : Dev nD) : W2 m ρ c (Proc.devRef .tc main_arg5) = m ((c : Thread nD τ).loc main_arg5) :=
  ((W2_of_ne m ρ c main_arg5 (by decide)).trans (Middle.first_arg5 (W0 m ρ c))).trans rfl
theorem W2_arg6 (c : Dev nD) : W2 m ρ c (Proc.devRef .tc main_arg6) = m ((c : Thread nD τ).loc main_arg6) :=
  ((W2_of_ne m ρ c main_arg6 (by decide)).trans (Middle.first_arg6 (W0 m ρ c))).trans rfl
theorem W2_arg7 (c : Dev nD) : W2 m ρ c (Proc.devRef .tc main_arg7) = m ((c : Thread nD τ).loc main_arg7) :=
  ((W2_of_ne m ρ c main_arg7 (by decide)).trans (Middle.first_arg7 (W0 m ρ c))).trans rfl
theorem W2_arg8 (c : Dev nD) : W2 m ρ c (Proc.devRef .tc main_arg8) = m ((c : Thread nD τ).loc main_arg8) :=
  ((W2_of_ne m ρ c main_arg8 (by decide)).trans (Middle.first_arg8 (W0 m ρ c))).trans rfl
theorem W2_arg9 (c : Dev nD) : W2 m ρ c (Proc.devRef .tc main_arg9) = m ((c : Thread nD τ).loc main_arg9) :=
  ((W2_of_ne m ρ c main_arg9 (by decide)).trans (Middle.first_arg9 (W0 m ρ c))).trans rfl

theorem W4_arg0 (c : Dev nD) : W4 m ρ c (Proc.devRef .tc main_arg0) = m ((c : Thread nD τ).loc main_arg0) :=
  (W4_of_ne m ρ c main_arg0 (by decide)).trans ((Middle.mid_arg0 (W2 m ρ c)).trans (W2_arg0 m ρ c))
theorem W4_arg1 (c : Dev nD) : W4 m ρ c (Proc.devRef .tc main_arg1) = m ((c : Thread nD τ).loc main_arg1) :=
  (W4_of_ne m ρ c main_arg1 (by decide)).trans ((Middle.mid_arg1 (W2 m ρ c)).trans (W2_arg1 m ρ c))
theorem W4_arg2 (c : Dev nD) : W4 m ρ c (Proc.devRef .tc main_arg2) = m ((c : Thread nD τ).loc main_arg2) :=
  (W4_of_ne m ρ c main_arg2 (by decide)).trans ((Middle.mid_arg2 (W2 m ρ c)).trans (W2_arg2 m ρ c))
theorem W4_arg3 (c : Dev nD) : W4 m ρ c (Proc.devRef .tc main_arg3) = m ((c : Thread nD τ).loc main_arg3) :=
  (W4_of_ne m ρ c main_arg3 (by decide)).trans ((Middle.mid_arg3 (W2 m ρ c)).trans (W2_arg3 m ρ c))
theorem W4_arg7 (c : Dev nD) : W4 m ρ c (Proc.devRef .tc main_arg7) = m ((c : Thread nD τ).loc main_arg7) :=
  (W4_of_ne m ρ c main_arg7 (by decide)).trans ((Middle.mid_arg7 (W2 m ρ c)).trans (W2_arg7 m ρ c))
theorem W4_arg8 (c : Dev nD) : W4 m ρ c (Proc.devRef .tc main_arg8) = m ((c : Thread nD τ).loc main_arg8) :=
  (W4_of_ne m ρ c main_arg8 (by decide)).trans ((Middle.mid_arg8 (W2 m ρ c)).trans (W2_arg8 m ρ c))
theorem W4_arg9 (c : Dev nD) : W4 m ρ c (Proc.devRef .tc main_arg9) = m ((c : Thread nD τ).loc main_arg9) :=
  (W4_of_ne m ρ c main_arg9 (by decide)).trans ((Middle.mid_arg9 (W2 m ρ c)).trans (W2_arg9 m ρ c))

/-! ## The first launch's array -/

/-- When the first launch ends its output holds the node table of the four tables read 128 wide; read back 64 wide it
    is the kernel program's node table of the arguments. -/
theorem table64_eq (c : Dev nD) : Middle.table64 (W2 m ρ c) = tableK (m ((c : Thread nD τ).loc main_arg0)) (m ((c : Thread nD τ).loc main_arg1)) (m ((c : Thread nD τ).loc main_arg2)) (m ((c : Thread nD τ).loc main_arg3)) := by
  have h : W2 m ρ c (Proc.devRef .tc main_v4)
      = nodeTable (StableHlo.after hostOps0 (W0 m ρ c) (Proc.devRef .tc main_v0)) (StableHlo.after hostOps0 (W0 m ρ c) (Proc.devRef .tc main_v1))
          (StableHlo.after hostOps0 (W0 m ρ c) (Proc.devRef .tc main_v2)) (StableHlo.after hostOps0 (W0 m ρ c) (Proc.devRef .tc main_v3)) :=
    (W2_arr m ρ c 4).trans (TableRegion.final (V1 m ρ) c)
  rw [Middle.first_v0, Middle.first_v1, Middle.first_v2, Middle.first_v3] at h
  unfold Middle.table64
  rw [h]
  rfl

/-! ## The second launch's array -/

/-- When the second launch ends its output, read back 64 wide, is the kernel program's pooled table of the arguments. -/
theorem pooled64_eq (c : Dev nD) : Tail.pooled64 (W4 m ρ c) = lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : W4 m ρ c (Proc.devRef .tc main_v49)
      = layerMean (StableHlo.after hostOps1 (W2 m ρ c) (Proc.devRef .tc main_v45)) (StableHlo.after hostOps1 (W2 m ρ c) (Proc.devRef .tc main_v46))
          (StableHlo.after hostOps1 (W2 m ρ c) (Proc.devRef .tc main_v47)) (StableHlo.after hostOps1 (W2 m ρ c) (Proc.devRef .tc main_v48)) :=
    (W4_arr m ρ c 4).trans (MeanRegion.final (V3 m ρ) c)
  rw [Middle.mid_v45, Middle.mid_v46, Middle.mid_v47, Middle.mid_v48, table64_eq, W2_arg4, W2_arg5, W2_arg6] at h
  unfold Tail.pooled64
  rw [h]
  rfl

/-! ## The six results -/

theorem out0 (c : Dev nD) : W5 m ρ c (Proc.devRef .tc main_v57) = pickK (lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) := by
  show StableHlo.after hostOps2 (W4 m ρ c) (Proc.devRef .tc main_v57) = _
  rw [Tail.tail_v57, pooled64_eq, W4_arg7]
theorem out1 (c : Dev nD) : W5 m ρ c (Proc.devRef .tc main_v66) = pickK (lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (shiftK (m ((c : Thread nD τ).loc main_arg8))) := by
  show StableHlo.after hostOps2 (W4 m ρ c) (Proc.devRef .tc main_v66) = _
  rw [Tail.tail_v66, pooled64_eq, W4_arg8]
theorem out2 (c : Dev nD) : W5 m ρ c (Proc.devRef .tc main_v75) = pickK (lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (shiftK (m ((c : Thread nD τ).loc main_arg9))) := by
  show StableHlo.after hostOps2 (W4 m ρ c) (Proc.devRef .tc main_v75) = _
  rw [Tail.tail_v75, pooled64_eq, W4_arg9]
theorem out3 (c : Dev nD) : W5 m ρ c (Proc.devRef .tc main_v91) = egoUserK (m ((c : Thread nD τ).loc main_arg0)) (m ((c : Thread nD τ).loc main_arg2)) (m ((c : Thread nD τ).loc main_arg7)) := by
  show StableHlo.after hostOps2 (W4 m ρ c) (Proc.devRef .tc main_v91) = _
  rw [Tail.tail_v91, W4_arg0, W4_arg2, W4_arg7]
theorem out4 (c : Dev nD) : W5 m ρ c (Proc.devRef .tc main_v107) = egoItemK (m ((c : Thread nD τ).loc main_arg1)) (m ((c : Thread nD τ).loc main_arg3)) (m ((c : Thread nD τ).loc main_arg8)) := by
  show StableHlo.after hostOps2 (W4 m ρ c) (Proc.devRef .tc main_v107) = _
  rw [Tail.tail_v107, W4_arg1, W4_arg3, W4_arg8]
theorem out5 (c : Dev nD) : W5 m ρ c (Proc.devRef .tc main_v123) = egoItemK (m ((c : Thread nD τ).loc main_arg1)) (m ((c : Thread nD τ).loc main_arg3)) (m ((c : Thread nD τ).loc main_arg9)) := by
  show StableHlo.after hostOps2 (W4 m ρ c) (Proc.devRef .tc main_v123) = _
  rw [Tail.tail_v123, W4_arg1, W4_arg3, W4_arg9]

/-- Every weakly fair execution of the kernel's program terminates without a fault with its six results at these
    functions of the arguments and the arguments as launched. -/
theorem run : θ_run defs (onTc (τ := τ) (main (F := F))) ⟨m, fun _ => 0, ρ⟩ (fun r => ∀ c : Dev nD,
      r.2.mem ((c.tc : Thread nD τ).loc main_v57) = pickK (lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7))
      ∧       r.2.mem ((c.tc : Thread nD τ).loc main_v66) = pickK (lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (shiftK (m ((c : Thread nD τ).loc main_arg8)))
      ∧       r.2.mem ((c.tc : Thread nD τ).loc main_v75) = pickK (lightK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (shiftK (m ((c : Thread nD τ).loc main_arg9)))
      ∧       r.2.mem ((c.tc : Thread nD τ).loc main_v91) = egoUserK (m ((c : Thread nD τ).loc main_arg0)) (m ((c : Thread nD τ).loc main_arg2)) (m ((c : Thread nD τ).loc main_arg7))
      ∧       r.2.mem ((c.tc : Thread nD τ).loc main_v107) = egoItemK (m ((c : Thread nD τ).loc main_arg1)) (m ((c : Thread nD τ).loc main_arg3)) (m ((c : Thread nD τ).loc main_arg8))
      ∧       r.2.mem ((c.tc : Thread nD τ).loc main_v123) = egoItemK (m ((c : Thread nD τ).loc main_arg1)) (m ((c : Thread nD τ).loc main_arg3)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c).1.trans (out0 m ρ c), (h c).2.1.trans (out1 m ρ c), (h c).2.2.1.trans (out2 m ρ c),
     (h c).2.2.2.1.trans (out3 m ρ c), (h c).2.2.2.2.1.trans (out4 m ρ c), (h c).2.2.2.2.2.1.trans (out5 m ρ c),
     (h c).2.2.2.2.2.2⟩)
    (Whole.run_main m ρ)

end Cert.KernelIdeal.Results

end
-- ==== Proof.RefResults.lean ====
/-
  The reference's run, its six results named as functions of the arguments: the composed terms of its operations are
  the pooled table's picked rows and the raw tables' picked rows times their masks' (Layers), read off syntactically.
-/
import proofs.«424377_j11115375362611_3_alg».proof.Proof.Gen.ReferenceIdeal.Run
import proofs.«424377_j11115375362611_3_alg».proof.Proof.Layers

set_option maxRecDepth 16384

noncomputable section

namespace Cert.ReferenceIdeal.Results

open Idealize.ShloMosaic Idealize.ShloMosaic.TcCoe Idealize.SL.Sem
open Cert.ReferenceIdeal Cert.ReferenceIdeal.Value Cert.Layers

variable {F : FTy → Type} [FloatOps F]
variable (m : (ℓ : Loc nD τ sig) → Buf (Elt F) ℓ) (ρ : Dev nD → PrngReg)

theorem res0 (c : Dev nD) : res_main_v55 m c = pickR (lightR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) := rfl
theorem res1 (c : Dev nD) : res_main_v64 m c = pickR (lightR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (shiftR (m ((c.tc : Thread nD τ).loc main_arg8))) := rfl
theorem res2 (c : Dev nD) : res_main_v73 m c = pickR (lightR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (shiftR (m ((c.tc : Thread nD τ).loc main_arg9))) := rfl

/-- Every weakly fair execution of the reference terminates without a fault with its six results at these functions
    of the arguments and the arguments as launched. -/
theorem run : θ_run defs (onTc (τ := τ) (main (F := F))) ⟨m, fun _ => 0, ρ⟩ (fun r => ∀ c : Dev nD,
      r.2.mem ((c.tc : Thread nD τ).loc main_v55) = pickR (lightR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))
      ∧ r.2.mem ((c.tc : Thread nD τ).loc main_v64) = pickR (lightR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (shiftR (m ((c.tc : Thread nD τ).loc main_arg8)))
      ∧ r.2.mem ((c.tc : Thread nD τ).loc main_v73) = pickR (lightR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (shiftR (m ((c.tc : Thread nD τ).loc main_arg9)))
      ∧ r.2.mem ((c.tc : Thread nD τ).loc main_v88) = egoUserR (m ((c.tc : Thread nD τ).loc main_arg0)) (m ((c.tc : Thread nD τ).loc main_arg2)) (m ((c.tc : Thread nD τ).loc main_arg7))
      ∧ r.2.mem ((c.tc : Thread nD τ).loc main_v103) = egoItemR (m ((c.tc : Thread nD τ).loc main_arg1)) (m ((c.tc : Thread nD τ).loc main_arg3)) (m ((c.tc : Thread nD τ).loc main_arg8))
      ∧ r.2.mem ((c.tc : Thread nD τ).loc main_v118) = egoItemR (m ((c.tc : Thread nD τ).loc main_arg1)) (m ((c.tc : Thread nD τ).loc main_arg3)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c).1.trans (res0 m c), (h c).2.1.trans (res1 m c), (h c).2.2.1.trans (res2 m c),
     (h c).2.2.2.1, (h c).2.2.2.2.1, (h c).2.2.2.2.2.1, (h c).2.2.2.2.2.2⟩)
    (Value.run (F := F) m ρ)

end Cert.ReferenceIdeal.Results

end
-- ==== Proof.Joins.lean ====
/-
  The laws that join the two programs' results (the functions of Layers).

  1. The propagation step, the row picks and the raw-table picks are the same functions on both sides: the two programs
     print the same operations over the same dimension records. A gather reads entries of its operand at positions
     computed from the index vector alone, so converting mask words to numbers after the gather or before it gives the
     same array.
  2. The node table. Entry `(r, q)` of the 64-wide table sits at row-major position `64·r + q`, which is entry
     `(r / 2, 64·(r mod 2) + q)` of the 128-wide array; that array's row `r / 2` is a user row exactly when
     `r < 400000`, and the user table read 128 wide at that entry is the user table's entry `(r, q)` again (the same
     position). So the 128-wide table read back is the user rows times their masks followed by the item rows times
     theirs: the concatenation.
  3. The pooled table. Reading four arrays 128 wide, combining them entry by entry and reading the result back 64 wide
     is combining them entry by entry; and on every extended real `x / 4 = x · ¼`: the word `0x40800000` is the real
     4, not zero, so the quotient is the product with its inverse, and `0x3E800000` is the real ¼.
-/
import proofs.«424377_j11115375362611_3_alg».proof.Proof.Layers

set_option maxRecDepth 16384

noncomputable section

namespace Cert.Layers

open Idealize.ShloMosaic Idealize.ShloMosaic.ValueIdx

/-! ## The two float words -/

theorem ofBits_four : Ideal.ofBits .f32 0x40800000#32 = ((4 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

/-- Dividing by four is multiplying by a quarter, on every extended real. -/
theorem div_four (x : EReal) : Ideal.div x (Ideal.ofBits .f32 0x40800000#32) = x * Ideal.ofBits .f32 0x3E800000#32 := by
  rw [ofBits_four, ofBits_quarter, Ideal.div_coe (by norm_num)]

/-! ## The operations both programs share -/

section Same
variable {F : FTy → Type} [FloatOps F]

theorem wrap_same (n : BitVec 32) (i : IVec Cert.KernelIdeal.S8192 32) : wrapK n i = wrapR n i := rfl

theorem spmm_same (x : FVec F Cert.KernelIdeal.S600000x64 .f32) (row col : IVec Cert.KernelIdeal.S1200000 32)
    (val : FVec F Cert.KernelIdeal.S1200000 .f32) : spmmK x row col val = spmmR x row col val := rfl

theorem pick_same (x : FVec F Cert.KernelIdeal.S600000x64 .f32) (i : IVec Cert.KernelIdeal.S8192 32) : pickK x i = pickR x i := rfl

theorem shift_same (i : IVec Cert.KernelIdeal.S8192 32) : shiftK i = shiftR i := rfl

/-- Picked user rows times picked mask rows: the conversion commutes with the gather. -/
theorem egoUser_same (a : FVec F Cert.KernelIdeal.S400000x64 .f32) (am : IVec Cert.KernelIdeal.S400000x64 32)
    (i : IVec Cert.KernelIdeal.S8192 32) : egoUserK a am i = egoUserR a am i := rfl

/-- The same for item rows. -/
theorem egoItem_same (a : FVec F Cert.KernelIdeal.S200000x64 .f32) (am : IVec Cert.KernelIdeal.S200000x64 32)
    (i : IVec Cert.KernelIdeal.S8192 32) : egoItemK a am i = egoItemR a am i := rfl

end Same

/-! ## Reading between the two layouts -/

section Layouts
open Cert.KernelIdeal Cert.KernelIdeal.Wide
variable {α : Type}

/-- The 128-wide array read back 64 wide at `(r, q)` is its entry `(r / 2, 64·(r mod 2) + q)`, whatever the array. -/
theorem narrow_read (r : Fin 600000) (q : Fin 64) :
    ∃ i : S300000x128.Idx, (i 0).val = r.val / 2 ∧ (i 1).val = (r.val % 2) * 64 + q.val
      ∧ ∀ (x : S300000x128.Idx → α) (h : S300000x128.ShapeCasts S600000x64), shapeCast S600000x64 x h (ix2 r q) = x i :=
  ⟨ix2 (⟨r.val / 2, by have := r.isLt; omega⟩ : Fin 300000) (⟨(r.val % 2) * 64 + q.val, by have := q.isLt; omega⟩ : Fin 128), rfl, rfl,
    fun x h => shapeCast_apply x h _ _ (by
      rw [Shape.rowMajor_val_two, Shape.rowMajor_val_two]
      show (r.val / 2) * 128 + ((r.val % 2) * 64 + q.val) = r.val * 64 + q.val
      omega)⟩

/-- The user-sized table read 128 wide at an entry with the row-major position of `(r, q)` is its entry `(r, q)`. -/
theorem wide_read_user (a : S400000x64.Idx → α) (h : S400000x64.ShapeCasts S200000x128) (k : S200000x128.Idx) (r : Fin 400000) (q : Fin 64)
    (hk : (k 0).val * 128 + (k 1).val = r.val * 64 + q.val) : shapeCast S200000x128 a h k = a (ix2 r q) :=
  shapeCast_apply a h _ _ (by
    rw [Shape.rowMajor_val_two, Shape.rowMajor_val_two]
    show r.val * 64 + q.val = (k 0).val * 128 + (k 1).val
    omega)

/-- The same for the item-sized table. -/
theorem wide_read_item (a : S200000x64.Idx → α) (h : S200000x64.ShapeCasts S100000x128) (k : S100000x128.Idx) (r : Fin 200000) (q : Fin 64)
    (hk : (k 0).val * 128 + (k 1).val = r.val * 64 + q.val) : shapeCast S100000x128 a h k = a (ix2 r q) :=
  shapeCast_apply a h _ _ (by
    rw [Shape.rowMajor_val_two, Shape.rowMajor_val_two]
    show r.val * 64 + q.val = (k 0).val * 128 + (k 1).val
    omega)

end Layouts

/-! ## The node table -/

section Table
open Cert.KernelIdeal Cert.KernelIdeal.Wide
variable {F : FTy → Type} [FloatOps F]

/-- The 128-wide node table read back 64 wide is the masked user rows followed by the masked item rows. -/
theorem table_same (a0 : FVec F S400000x64 .f32) (a1 : FVec F S200000x64 .f32) (a2 : IVec S400000x64 32) (a3 : IVec S200000x64 32) :
    tableK a0 a1 a2 a3 = tableR a0 a1 a2 a3 := by
  funext j
  obtain ⟨r, q, rfl⟩ : ∃ (r : Fin 600000) (q : Fin 64), j = ix2 r q := ⟨j 0, j 1, eq_ix2 j⟩
  have hr : r.val < 600000 := r.isLt
  have hq : q.val < 64 := q.isLt
  obtain ⟨i, hi0, hi1, e⟩ := narrow_read (α := F .f32) r q
  unfold tableK tableR
  rw [e]
  by_cases h : r.val < 400000
  · have hlt : (i 0).val < 200000 := by rw [hi0]; omega
    obtain ⟨k, hk0, hk1⟩ : ∃ k : S200000x128.Idx, (k 0).val = (i 0).val ∧ (k 1).val = (i 1).val :=
      ⟨ix2 (⟨(i 0).val, hlt⟩ : Fin 200000) (⟨(i 1).val, idx2_lt1 i⟩ : Fin 128), rfl, rfl⟩
    have hpos : (k 0).val * 128 + (k 1).val = r.val * 64 + q.val := by rw [hk0, hk1, hi0, hi1]; omega
    rw [nodeTable_user _ _ _ _ i k hlt hk0 hk1, wide_read_user a0 _ k ⟨r.val, h⟩ q hpos, wide_read_user a2 _ k ⟨r.val, h⟩ q hpos]
    exact (concatenate_pair_apply_left (t := Cert.ReferenceIdeal.S600000x64) (s₁ := Cert.ReferenceIdeal.S400000x64)
      (s₂ := Cert.ReferenceIdeal.S200000x64) (0 : Fin 2) (mulf a0 (sitofp .f32 a2)) (mulf a1 (sitofp .f32 a3)) _ (ix2 r q) rfl
      (ix2 (⟨r.val, h⟩ : Fin 400000) q) (fun b => by match b with | ⟨0, _⟩ => rfl | ⟨1, _⟩ => rfl)).symm
  · obtain ⟨s, hs⟩ : ∃ s : ℕ, r.val = 400000 + s := ⟨r.val - 400000, by omega⟩
    have hs2 : s < 200000 := by omega
    have hge : ¬(i 0).val < 200000 := by rw [hi0]; omega
    obtain ⟨k, hk0, hk1⟩ : ∃ k : S100000x128.Idx, (k 0).val = (i 0).val - 200000 ∧ (k 1).val = (i 1).val :=
      ⟨ix2 (⟨(i 0).val - 200000, by rw [hi0]; omega⟩ : Fin 100000) (⟨(i 1).val, idx2_lt1 i⟩ : Fin 128), rfl, rfl⟩
    have hpos : (k 0).val * 128 + (k 1).val = s * 64 + q.val := by
      rw [hk0, hk1, hi0, hi1]; clear hk0 hk1 hge hi0 hi1; omega
    rw [nodeTable_item _ _ _ _ i k hge hk0 hk1, wide_read_item a1 _ k ⟨s, hs2⟩ q hpos, wide_read_item a3 _ k ⟨s, hs2⟩ q hpos]
    exact (concatenate_pair_apply_right (t := Cert.ReferenceIdeal.S600000x64) (s₁ := Cert.ReferenceIdeal.S400000x64)
      (s₂ := Cert.ReferenceIdeal.S200000x64) (0 : Fin 2) (mulf a0 (sitofp .f32 a2)) (mulf a1 (sitofp .f32 a3)) _ (ix2 r q) rfl rfl
      (ix2 (⟨s, hs2⟩ : Fin 200000) q)
      (fun b hb => by match b with | ⟨0, _⟩ => exact absurd rfl hb | ⟨1, _⟩ => rfl)
      (by show s + 400000 = r.val; omega)).symm

end Table

/-! ## The pooled table -/

section Pool
open Cert.KernelIdeal Cert.KernelIdeal.Facts₀ Cert.KernelIdeal.Wide

/-- Pooling 128 wide and reading back is the mean over 4, at the extended reals. -/
theorem pool_same (x0 x1 x2 x3 : FVec Ideal S600000x64 .f32) : poolK x0 x1 x2 x3 = poolR x0 x1 x2 x3 := by
  funext j
  unfold poolK poolR
  show (shapeCast S600000x64 (shapeCast S300000x128 x0 shapeCasts_S600000x64_S300000x128) shapeCasts_S300000x128_S600000x64 j
        + shapeCast S600000x64 (shapeCast S300000x128 x1 shapeCasts_S600000x64_S300000x128) shapeCasts_S300000x128_S600000x64 j
        + shapeCast S600000x64 (shapeCast S300000x128 x2 shapeCasts_S600000x64_S300000x128) shapeCasts_S300000x128_S600000x64 j
        + shapeCast S600000x64 (shapeCast S300000x128 x3 shapeCasts_S600000x64_S300000x128) shapeCasts_S300000x128_S600000x64 j)
        * Ideal.ofBits .f32 0x3E800000#32
      = Ideal.div (x0 j + x1 j + x2 j + x3 j) (Ideal.ofBits .f32 0x40800000#32)
  rw [shapeCast_shapeCast, shapeCast_shapeCast, shapeCast_shapeCast, shapeCast_shapeCast]
  exact (div_four _).symm

/-- The two pooled tables, from the arguments, at the extended reals. -/
theorem light_same (a0 : FVec Ideal S400000x64 .f32) (a1 : FVec Ideal S200000x64 .f32) (a2 : IVec S400000x64 32) (a3 : IVec S200000x64 32)
    (row col : IVec S1200000 32) (val : FVec Ideal S1200000 .f32) :
    lightK a0 a1 a2 a3 row col val = lightR a0 a1 a2 a3 row col val := by
  unfold lightK lightR
  rw [table_same, pool_same]
  rfl

end Pool

end Cert.Layers

end
-- ==== Proof.lean ====
/-
  The kernel's program against its reference: LightGCN propagation with layer-mean pooling and a triple of row picks.

  Both programs build the masked node table `T` (user rows times their 0/1 masks, then item rows times theirs), push it
  three times through the adjacency list (`P`: entry `e` sends `val e` times row `col e` to row `row e`, rows summing
  what they receive), pool `L = (((T + P T) + P² T) + P³ T) / 4`, and return the rows of `L` at the user, positive-item
  and negative-item numbers together with the same rows of the raw tables times the same rows of their masks.
  The kernel's program differs in three places. It builds `T` in one launch over a 128-wide layout, block by block
  from the user or the item table according to the block's number (TableRegion); read back 64 wide that array IS the
  concatenation, because both layouts keep row-major positions (Joins, `table_same`). It pools in a second launch over
  the same layout with `· ¼` where the reference has `/ 4` (MeanRegion); the two agree on every extended real, the
  divisor being the nonzero real 4 and the factor its inverse (Joins, `pool_same`): no finiteness of the inputs is
  used. And it converts a picked mask row to numbers after the gather where the reference converts the mask first;
  a gather only picks entries, so the two orders give one array (Joins, `egoUser_same`, `egoItem_same`).
  The propagation steps and the picks are the same operations in both programs.

  The frames of the two kernel programs are the generated ones; the reference's frame is its generated run with the
  results dropped; the idealization rewrote nothing, so there is nothing to preserve beyond the text itself.
-/
import proofs.«424377_j11115375362611_3_alg».proof.Defs
import proofs.«424377_j11115375362611_3_alg».proof.Proof.Gen.Kernel
import proofs.«424377_j11115375362611_3_alg».proof.Proof.Gen.Kernel.Skeleton
import proofs.«424377_j11115375362611_3_alg».proof.Proof.Gen.Kernel.Launch
import proofs.«424377_j11115375362611_3_alg».proof.Proof.Gen.Kernel.Points
import proofs.«424377_j11115375362611_3_alg».proof.Proof.Gen.Kernel.Frame
import proofs.«424377_j11115375362611_3_alg».proof.Proof.Gen.KernelIdeal
import proofs.«424377_j11115375362611_3_alg».proof.Proof.Gen.KernelIdeal.Skeleton
import proofs.«424377_j11115375362611_3_alg».proof.Proof.Gen.KernelIdeal.Launch
import proofs.«424377_j11115375362611_3_alg».proof.Proof.Gen.KernelIdeal.Points
import proofs.«424377_j11115375362611_3_alg».proof.Proof.Gen.KernelIdeal.Frame
import proofs.«424377_j11115375362611_3_alg».proof.Proof.Gen.ReferenceIdeal
import proofs.«424377_j11115375362611_3_alg».proof.Proof.Gen.ReferenceIdeal.Run
import proofs.«424377_j11115375362611_3_alg».proof.Proof.Gen.Pre_finite_inputs
import proofs.«424377_j11115375362611_3_alg».proof.Proof.Results
import proofs.«424377_j11115375362611_3_alg».proof.Proof.RefResults
import proofs.«424377_j11115375362611_3_alg».proof.Proof.Joins
import Idealize.ShloMosaic.Adequacy
import Idealize.ShloMosaic.Init

noncomputable section

namespace Cert.Proof

open Idealize.ShloMosaic Idealize.SL.Sem Cert.Layers

/-- The reference runs and leaves its arguments as launched: its run, the results dropped. -/
theorem frame_reference : Cert.frame_ReferenceIdeal := fun m ρ _ =>
  (θ_run Cert.ReferenceIdeal.defs _ _).mono (fun _ h c => (h c).2.2.2.2.2.2) (Cert.ReferenceIdeal.Value.run (F := Ideal) m ρ)

/-- At the extended reals, from memories agreeing on the arguments, both programs end with the same six arrays: the
    kernel program's results (Results) are the reference's (RefResults) by the joining laws. -/
theorem algebraic : Cert.algebraic_KernelIdeal_ReferenceIdeal := by
  intro m ρ m' ρ' _ hagree
  refine ⟨_, _, _, _, _, _, Cert.KernelIdeal.Results.run (F := Ideal) m ρ, ?_⟩
  refine (θ_run Cert.ReferenceIdeal.defs _ _).mono (fun r h c => ?_) (Cert.ReferenceIdeal.Results.run (F := Ideal) m' ρ')
  obtain ⟨h0, h1, h2, h3, h4, h5, h6, h7, h8, h9⟩ := hagree c
  obtain ⟨r0, r1, r2, r3, r4, r5, rargs⟩ := h c
  refine ⟨r0.trans ?_, r1.trans ?_, r2.trans ?_, r3.trans ?_, r4.trans ?_, r5.trans ?_, rargs⟩
  · rw [h0, h1, h2, h3, h4, h5, h6, h7, light_same, pick_same]
  · rw [h0, h1, h2, h3, h4, h5, h6, h8, light_same, pick_same, shift_same]
  · rw [h0, h1, h2, h3, h4, h5, h6, h9, light_same, pick_same, shift_same]
  · rw [h0, h2, h7, egoUser_same]
  · rw [h1, h3, h8, egoItem_same]
  · rw [h1, h3, h9, egoItem_same]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
